-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : IVec S32x1024x1024 32) (main_arg1 : IVec S32x1024x1024 32) : IVec S_ 1 :=
  let main_c : IVec S_ 32 := constantI S_ 32 0#32
  let main_v0 : IVec S32x1024x1024 32 := broadcastInDim S32x1024x1024 ![] bcast_S_S32x1024x1024 main_c
  let main_v1 : IVec S32x1024x1024 1 := cmpi .sge main_arg0 main_v0
  let main_c_0 : IVec S_ 1 := constantI S_ 1 1#1
  let main_v2 : IVec S_ 1 := (fun x v => Host.reduce IntOp.andi x v reducesTo_S32x1024x1024_S_d0_1_2 h_S_) main_v1 main_c_0
  let main_c_1 : IVec S_ 32 := constantI S_ 32 0#32
  let main_v3 : IVec S32x1024x1024 32 := broadcastInDim S32x1024x1024 ![] bcast_S_S32x1024x1024 main_c_1
  let main_v4 : IVec S32x1024x1024 1 := cmpi .sge main_arg1 main_v3
  let main_c_2 : IVec S_ 1 := constantI S_ 1 1#1
  let main_v5 : IVec S_ 1 := (fun x v => Host.reduce IntOp.andi x v reducesTo_S32x1024x1024_S_d0_1_2 h_S_) main_v4 main_c_2
  let main_v6 : IVec S_ 1 := andi main_v2 main_v5
  main_v6
-- ==== Kernel.lean ====
abbrev S32x1024x1024 : Shape := ⟨3, ![32, 1024, 1024]⟩
abbrev S2x3x21 : Shape := ⟨3, ![2, 3, 21]⟩
abbrev S1x256x1024 : Shape := ⟨3, ![1, 256, 1024]⟩
abbrev S1x3x21 : Shape := ⟨3, ![1, 3, 21]⟩
abbrev S256x1024 : Shape := ⟨2, ![256, 1024]⟩
abbrev S1x21 : Shape := ⟨2, ![1, 21]⟩
abbrev S3x21 : Shape := ⟨2, ![3, 21]⟩
abbrev S256 : Shape := ⟨1, ![256]⟩
abbrev S256x1 : Shape := ⟨2, ![256, 1]⟩
abbrev S1 : Shape := ⟨1, ![1]⟩
abbrev S1x1 : Shape := ⟨2, ![1, 1]⟩
abbrev S3 : Shape := ⟨1, ![3]⟩
abbrev S3x1 : Shape := ⟨2, ![3, 1]⟩
abbrev S_ : Shape := ⟨0, ![]⟩
abbrev S21 : Shape := ⟨1, ![21]⟩

abbrev nBuf : Space → Nat
  | .hbm => 32
  | .vmem => 6
  | .smem => 0
  | _ => 0

abbrev bufTy : (tb : Table) → Fin (tcTables nBuf tb) → BufTy
  | .hbm, ⟨0, _⟩ => ⟨S32x1024x1024, .i32⟩
  | .hbm, ⟨1, _⟩ => ⟨S32x1024x1024, .i32⟩
  | .hbm, ⟨2, _⟩ => ⟨S2x3x21, .f32⟩
  | .hbm, ⟨3, _⟩ => ⟨S_, .f32⟩
  | .hbm, ⟨4, _⟩ => ⟨S3x21, .f32⟩
  | .hbm, ⟨5, _⟩ => ⟨S1x21, .f32⟩
  | .hbm, ⟨6, _⟩ => ⟨S21, .f32⟩
  | .hbm, ⟨7, _⟩ => ⟨S1x21, .f32⟩
  | .hbm, ⟨8, _⟩ => ⟨S21, .f32⟩
  | .hbm, ⟨9, _⟩ => ⟨S1x21, .f32⟩
  | .hbm, ⟨10, _⟩ => ⟨S21, .f32⟩
  | .hbm, ⟨11, _⟩ => ⟨S21, .f32⟩
  | .hbm, ⟨12, _⟩ => ⟨S21, .f32⟩
  | .hbm, ⟨13, _⟩ => ⟨S_, .f32⟩
  | .hbm, ⟨14, _⟩ => ⟨S21, .f32⟩
  | .hbm, ⟨15, _⟩ => ⟨S21, .f32⟩
  | .hbm, ⟨16, _⟩ => ⟨S_, .f32⟩
  | .hbm, ⟨17, _⟩ => ⟨S21, .f32⟩
  | .hbm, ⟨18, _⟩ => ⟨S21, .f32⟩
  | .hbm, ⟨19, _⟩ => ⟨S21, .f32⟩
  | .hbm, ⟨20, _⟩ => ⟨S_, .f32⟩
  | .hbm, ⟨21, _⟩ => ⟨S21, .f32⟩
  | .hbm, ⟨22, _⟩ => ⟨S21, .i1⟩
  | .hbm, ⟨23, _⟩ => ⟨S21, .f32⟩
  | .hbm, ⟨24, _⟩ => ⟨S21, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x256x1024, .i32⟩
  | .local _ .vmem, ⟨1, _⟩ => ⟨S1x256x1024, .i32⟩
  | .local _ .vmem, ⟨2, _⟩ => ⟨S1x256x1024, .i32⟩
  | .local _ .vmem, ⟨3, _⟩ => ⟨S1x256x1024, .i32⟩
  | .local _ .vmem, ⟨4, _⟩ => ⟨S1x3x21, .f32⟩
  | .local _ .vmem, ⟨5, _⟩ => ⟨S1x3x21, .f32⟩
  | _, _ => ⟨S32x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

@[reducible] def k0_t1_loop : Scf.Loop 32 :=
  let c0_i32_7 : BitVec 32 := 0#32
  let c21_i32 : BitVec 32 := 21#32
  let v13 : BitVec 32 := Scalar.addi c0_i32_7 c21_i32
  let c1_i32_8 : BitVec 32 := 1#32
  ⟨c0_i32_7, v13, c1_i32_8⟩
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x3x21_S1x3x21_0_0_0 : ∀ a, (![0, 0, 0] : Fin 3 → Nat) a + S1x3x21.size a ≤ S1x3x21.size a
  h_S1x3x21 : 0 < S1x3x21.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  iota_S1x21_d1_w32 : S1x21.Iotas .tc 32 [1]
  natLt_1_32 : 1 < 32
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  inpos_S1x1_p0_0 : ∀ a, (![0, 0] : Fin 2 → Nat) a < S1x1.size a
  concatenates_S1_S1_S1_S3_d0 : Shape.Concatenates [S1, S1, S1] S3 0
  shapeCasts_S3_S3x1 : S3.ShapeCasts S3x1
  broadcasts_S3x1_S3x21 : S3x1.Broadcasts S3x21
  broadcasts_S1x21_S3x21 : S1x21.Broadcasts S3x21
  shapeCasts_S1x3x21_S1x3x21 : S1x3x21.ShapeCasts S1x3x21
  shapeCasts_S3x21_S1x3x21 : S3x21.ShapeCasts S1x3x21
  reducesTo_S2x3x21_S3x21_d0 : S2x3x21.ReducesTo [0] S3x21
  h_S_ : 0 < S_.numel
  slices_S3x21_S1x21_0_0 : S3x21.Slices ![0, 0] S1x21
  shapeCasts_S1x21_S21 : S1x21.ShapeCasts S21
  slices_S3x21_S1x21_1_0 : S3x21.Slices ![1, 0] S1x21
  slices_S3x21_S1x21_2_0 : S3x21.Slices ![2, 0] S1x21
  bcast_S_S21 : S_.BroadcastsInDim S21 (![] : Fin 0 → Fin S21.rank)
  reducesTo_S21_S_d0 : S21.ReducesTo [0] S_
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .i32 = 32 ∨ (Rect.block (s := S32x1024x1024) S1x256x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x1024x1024.size a
  hwx0_1 : ∀ i : grid0.Coords, EltTy.bits .i32 = 32 ∨ (Rect.block (s := S32x1024x1024) S1x256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x21.size a ≤ S2x3x21.size a
  hwx0_2 : ∀ i : grid0.Coords, EltTy.bits .f32 = 32 ∨ (Rect.block (s := S2x3x21) S1x3x21.size (cc0_transform_2 i) (hinb0_2 i)).WholeWords (EltTy.packing .f32)

variable [Facts₀]

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x21.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩
abbrev S23 : Shape := ⟨1, ![23]⟩
abbrev S33554432x1 : Shape := ⟨2, ![33554432, 1]⟩
abbrev S21 : Shape := ⟨1, ![21]⟩

abbrev nBuf : Space → Nat
  | .hbm => 72
  | .vmem => 0
  | .smem => 0
  | _ => 0

abbrev bufTy : (tb : Table) → Fin (tcTables nBuf tb) → BufTy
  | .hbm, ⟨0, _⟩ => ⟨S32x1024x1024, .i32⟩
  | .hbm, ⟨1, _⟩ => ⟨S32x1024x1024, .i32⟩
  | .hbm, ⟨2, _⟩ => ⟨S33554432, .i32⟩
  | .hbm, ⟨3, _⟩ => ⟨S33554432, .i32⟩
  | .hbm, ⟨4, _⟩ => ⟨S_, .f32⟩
  | .hbm, ⟨5, _⟩ => ⟨S23, .f32⟩
  | .hbm, ⟨6, _⟩ => ⟨S_, .i32⟩
  | .hbm, ⟨7, _⟩ => ⟨S33554432, .i32⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S33554432, .i32⟩
  | .hbm, ⟨13, _⟩ => ⟨S33554432x1, .i32⟩
  | .hbm, ⟨14, _⟩ => ⟨S_, .f32⟩
  | .hbm, ⟨15, _⟩ => ⟨S33554432, .f32⟩
  | .hbm, ⟨16, _⟩ => ⟨S23, .f32⟩
  | .hbm, ⟨17, _⟩ => ⟨S_, .f32⟩
  | .hbm, ⟨18, _⟩ => ⟨S23, .f32⟩
  | .hbm, ⟨19, _⟩ => ⟨S_, .i32⟩
  | .hbm, ⟨20, _⟩ => ⟨S33554432, .i32⟩
  | .hbm, ⟨21, _⟩ => ⟨S33554432, .i1⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S33554432, .i32⟩
  | .hbm, ⟨26, _⟩ => ⟨S33554432x1, .i32⟩
  | .hbm, ⟨27, _⟩ => ⟨S_, .f32⟩
  | .hbm, ⟨28, _⟩ => ⟨S33554432, .f32⟩
  | .hbm, ⟨29, _⟩ => ⟨S23, .f32⟩
  | .hbm, ⟨30, _⟩ => ⟨S33554432, .i1⟩
  | .hbm, ⟨31, _⟩ => ⟨S_, .i32⟩
  | .hbm, ⟨32, _⟩ => ⟨S_, .i32⟩
  | .hbm, ⟨33, _⟩ => ⟨S33554432, .i32⟩
  | .hbm, ⟨34, _⟩ => ⟨S33554432, .i32⟩
  | .hbm, ⟨35, _⟩ => ⟨S_, .f32⟩
  | .hbm, ⟨36, _⟩ => ⟨S23, .f32⟩
  | .hbm, ⟨37, _⟩ => ⟨S_, .i32⟩
  | .hbm, ⟨38, _⟩ => ⟨S33554432, .i32⟩
  | .hbm, ⟨39, _⟩ => ⟨S33554432, .i1⟩
  | .hbm, ⟨40, _⟩ => ⟨S_, .i32⟩
  | .hbm, ⟨41, _⟩ => ⟨S33554432, .i32⟩
  | .hbm, ⟨42, _⟩ => ⟨S33554432, .i32⟩
  | .hbm, ⟨43, _⟩ => ⟨S33554432, .i32⟩
  | .hbm, ⟨44, _⟩ => ⟨S33554432x1, .i32⟩
  | .hbm, ⟨45, _⟩ => ⟨S_, .f32⟩
  | .hbm, ⟨46, _⟩ => ⟨S33554432, .f32⟩
  | .hbm, ⟨47, _⟩ => ⟨S23, .f32⟩
  | .hbm, ⟨48, _⟩ => ⟨S21, .f32⟩
  | .hbm, ⟨49, _⟩ => ⟨S21, .f32⟩
  | .hbm, ⟨50, _⟩ => ⟨S21, .f32⟩
  | .hbm, ⟨51, _⟩ => ⟨S21, .f32⟩
  | .hbm, ⟨52, _⟩ => ⟨S21, .f32⟩
  | .hbm, ⟨53, _⟩ => ⟨S_, .f32⟩
  | .hbm, ⟨54, _⟩ => ⟨S21, .f32⟩
  | .hbm, ⟨55, _⟩ => ⟨S21, .f32⟩
  | .hbm, ⟨56, _⟩ => ⟨S_, .f32⟩
  | .hbm, ⟨57, _⟩ => ⟨S21, .f32⟩
  | .hbm, ⟨58, _⟩ => ⟨S21, .f32⟩
  | .hbm, ⟨59, _⟩ => ⟨S21, .f32⟩
  | .hbm, ⟨60, _⟩ => ⟨S_, .f32⟩
  | .hbm, ⟨61, _⟩ => ⟨S21, .f32⟩
  | .hbm, ⟨62, _⟩ => ⟨S21, .i1⟩
  | .hbm, ⟨63, _⟩ => ⟨S21, .f32⟩
  | .hbm, ⟨64, _⟩ => ⟨S21, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S32x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_cst_16 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S23 : S_.BroadcastsInDim S23 (![] : Fin 0 → Fin S23.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  slices_S23_S21_1 : S23.Slices ![1] S21
  bcast_S_S21 : S_.BroadcastsInDim S21 (![] : Fin 0 → Fin S21.rank)
  reducesTo_S21_S_d0 : S21.ReducesTo [0] S_
  h_S_ : 0 < S_.numel
  scatter_S23_S33554432x1_S33554432_n_0_0_1_wf : ScatterDims.WF S23 S33554432x1 S33554432 [] [0] [0] 1

variable [Facts₀]

def scatter_S23_S33554432x1_S33554432_n_0_0_1 : ScatterDims S23 S33554432x1 S33554432 where
  updateWindowDims := []
  insertedWindowDims := [0]
  scatterDimsToOperandDims := [0]
  indexVectorDim := 1
  wf := scatter_S23_S33554432x1_S33554432_n_0_0_1_wf

class Facts : Prop extends Facts₀ where

variable [Facts]
-- ==== Proof.Spec.lean ====
/- The specification both programs are compared with.

   Labels are 32-bit words; class `k` (of 21) is the word `k + 1`. For a pair of label arrays
   (predicted, true) three counts are taken per class: the places whose true label is the class,
   the places whose predicted label is the class, and the places where both are. `total` counts
   over a whole array of shape [32, 1024, 1024], `tileCount` over one tile of shape [1, 256, 1024].
   From the three count vectors the result is the per-class ratio
   (both + eps) / (true + predicted - both + eps) and its mean over the classes that occur. -/
import Idealize.ShloMosaic.PureOps
import Idealize.ShloMosaic.PureOps.Ideal
import Idealize.ShloMosaic.Lib.ValueIdx
import Mathlib.Algebra.BigOperators.Fin

noncomputable section

open scoped BigOperators

namespace Cert.Hist

open Idealize.ShloMosaic Idealize.ShloMosaic.ValueIdx

abbrev SArr : Shape := ⟨3, ![32, 1024, 1024]⟩
abbrev STile : Shape := ⟨3, ![1, 256, 1024]⟩
abbrev S21 : Shape := ⟨1, ![21]⟩
abbrev S_ : Shape := ⟨0, ![]⟩

/-- The label word of class `k`: `k + 1` (label `0` is background and is not scored). -/
def cls (k : Fin 21) : BitVec 32 := BitVec.ofNat 32 (k.val + 1)

/-- What is counted at a place with predicted label `p` and true label `t`, by kind:
    kind 0 the true label is the class, kind 1 the predicted label is, kind 2 both are. -/
def hitP (r : Fin 3) (k : Fin 21) (p t : BitVec 32) : Prop :=
  match r with
  | ⟨0, _⟩ => t = cls k
  | ⟨1, _⟩ => p = cls k
  | ⟨_ + 2, _⟩ => t = cls k ∧ p = cls k

instance (r : Fin 3) (k : Fin 21) (p t : BitVec 32) : Decidable (hitP r k p t) := by
  unfold hitP; split <;> infer_instance

/-- The indicator of `hitP` as an extended real. -/
def hit (r : Fin 3) (k : Fin 21) (p t : BitVec 32) : EReal := if hitP r k p t then 1 else 0

/-- The count of kind `r` for class `k` over one tile: predicted labels `x0`, true labels `x1`. -/
def tileCount (x0 x1 : STile.Idx → BitVec 32) (r : Fin 3) (k : Fin 21) : EReal :=
  ∑ row : Fin 256, ∑ col : Fin 1024, hit r k (x0 (ix3 0 row col)) (x1 (ix3 0 row col))

/-- The count of kind `r` for class `k` over the whole arrays: predicted labels `yp`, true labels `yt`. -/
def total (yp yt : SArr.Idx → BitVec 32) (r : Fin 3) (k : Fin 21) : EReal :=
  ∑ q : SArr.Idx, hit r k (yp q) (yt q)

variable {F : FTy → Type} [FloatOps F]

/-- The per-class ratio (both + eps) / (true + predicted - both + eps) of three count vectors. -/
def iouOf (hb : S_.BroadcastsInDim S21 (![] : Fin 0 → Fin S21.rank)) (ct cp ci : FVec F S21 .f32) : FVec F S21 .f32 :=
  Host.divf (addf ci (broadcastInDim S21 ![] hb (constant S_ .f32 0x358637BD#32)))
    (addf (subf (addf ct cp) ci) (broadcastInDim S21 ![] hb (constant S_ .f32 0x358637BD#32)))

/-- The mean of the ratio over the classes whose true count is positive (over one class when none is). -/
def miouOf (hb : S_.BroadcastsInDim S21 (![] : Fin 0 → Fin S21.rank)) (hr : S21.ReducesTo [0] S_) (h0 : 0 < S_.numel)
    (ct cp ci : FVec F S21 .f32) : FVec F S_ .f32 :=
  Host.divf
    (Host.reduceAdd
      (mulf (iouOf hb ct cp ci)
        (uitofp (F := F) .f32 (cmpf (F := F) .ogt ct (broadcastInDim S21 ![] hb (constant S_ .f32 0x00000000#32)))))
      (constant S_ .f32 0x00000000#32) hr h0)
    (maximumf
      (Host.reduceAdd
        (uitofp (F := F) .f32 (cmpf (F := F) .ogt ct (broadcastInDim S21 ![] hb (constant S_ .f32 0x00000000#32))))
        (constant S_ .f32 0x00000000#32) hr h0)
      (constant S_ .f32 0x3F800000#32))

end Cert.Hist

end
-- ==== Proof.PreDecode.lean ====
/- The precondition read back: every label is non-negative.

   The precondition is the conjunction of two statements of the same form, one per label array:
   the conjunction over all places of "the label at this place is at least 0 as a signed word" is true.
   A conjunction of one-bit words is 1 only when every conjunct is 1, and a signed comparison
   "x ≥ 0" that is 1 says that the integer the word x denotes is non-negative. -/
import proofs.«181553_j41497974014422_1_alg».proof.Pre_any_inputs
import Idealize.ShloMosaic.Lib.ReduceAll
import Idealize.ShloMosaic.Lib.Affine
import Idealize.ShloMosaic.Lib.StableHlo.Predicate
import Idealize.ShloMosaic.Lib.ValueIdx

namespace Cert.Hist.Pre

open Idealize.ShloMosaic Idealize.ShloMosaic.ValueIdx

/-- The shape with no axes has exactly one index. -/
instance : Subsingleton Cert.Pre_any_inputs.S_.Idx := ⟨fun a b => funext fun d => d.elim0⟩

/-- A signed comparison "x ≥ the zero word broadcast everywhere" that is 1 at a place says the
    label there denotes a non-negative integer. -/
theorem nonneg_of_sge_zero [Cert.Pre_any_inputs.Facts] (a : IVec Cert.Pre_any_inputs.S32x1024x1024 32)
    (q : Cert.Pre_any_inputs.S32x1024x1024.Idx)
    (e : cmpi .sge a (broadcastInDim Cert.Pre_any_inputs.S32x1024x1024 ![]
          Cert.Pre_any_inputs.Facts.bcast_S_S32x1024x1024 (constantI Cert.Pre_any_inputs.S_ 32 0#32)) q = 1#1) :
    0 ≤ (a q).toInt := by
  have e' : IntOp.cmpi .sge (a q) (0#32) = 1#1 := e
  have h0 := IntOp.cmpi_sge.1 e'
  rwa [show (0#32 : BitVec 32).toInt = 0 from by decide] at h0

/-- The precondition being true says every label of both arrays is non-negative. -/
theorem nonneg_of_pre {F : FTy → Type} [FloatOps F] [Cert.Pre_any_inputs.Facts]
    (a0 a1 : IVec Cert.Pre_any_inputs.S32x1024x1024 32)
    (h : Cert.Pre_any_inputs.fn (F := F) a0 a1 = fun _ => 1#1) :
    (∀ q, 0 ≤ (a0 q).toInt) ∧ (∀ q, 0 ≤ (a1 q).toInt) := by
  have h0 := congrFun h ix0
  dsimp only [Cert.Pre_any_inputs.fn] at h0
  obtain ⟨e0, e1⟩ := IntOp.andi_eq_one.1 h0
  exact ⟨fun q => nonneg_of_sge_zero a0 q (Host.reduce_andi_all _ _ _ _ ix0 e0 q),
         fun q => nonneg_of_sge_zero a1 q (Host.reduce_andi_all _ _ _ _ ix0 e1 q)⟩

end Cert.Hist.Pre
-- ==== Proof.Blocks.lean ====
/- The idealized kernel's tiles, named at their literal types.

   The grid has 128 points; point `t` reads, of each label array, the tile of 256 rows
   `[t / 4, (t % 4) * 256 .. (t % 4) * 256 + 255, all 1024 columns]`, and the 64 points
   `64 * o .. 64 * o + 63` accumulate into block `o` (of 2) of the kernel's count array.
   `loopVal` is what the kernel's loop over the 21 classes computes from one pair of tiles. -/
import proofs.«181553_j41497974014422_1_alg».proof.Proof.Gen.KernelIdeal.Frame
import proofs.«181553_j41497974014422_1_alg».proof.Proof.Spec

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

/-- The value of the kernel's loop over the classes on one pair of tiles: the per-class step folded
    over the 21 trips from the zero vector. -/
def loopVal (x0 x1 : Vec F S1x256x1024 .i32) : FVec F S3x21 .f32 :=
  Scf.fold (fun kk acc => k0_pay3 x0 x1 kk acc) (k0_pay2 (F := F))

variable (m : (ℓ : Loc nD τ sig) → Buf (Elt F) ℓ)

/-- The tile of predicted labels that grid point `t` reads. -/
abbrev xblk0 (c : Dev nD) (t : Fin cfg0.N) : Vec F S1x256x1024 .i32 := iblk m c 0 t
/-- The tile of true labels that grid point `t` reads. -/
abbrev xblk1 (c : Dev nD) (t : Fin cfg0.N) : Vec F S1x256x1024 .i32 := iblk m c 1 t

/-- Point `s` (of 64) of the run that accumulates into block `o` (of 2) of the count array. -/
def pt (o : Fin 2) (s : Fin 64) : Fin cfg0.N :=
  ⟨64 * o.val + s.val, by rw [show cfg0.N = 128 from N_0]; omega⟩

theorem pt_val (o : Fin 2) (s : Fin 64) : (pt o s).val = 64 * o.val + s.val := rfl

end Cert.KernelIdeal.HistValue

end
-- ==== Proof.LibSumLemmas.lean ====
/- Finite sums with values in a commutative additive monoid (the extended reals in use): a one-hot
   contraction reads one term, a sum over blocks whose terms vanish past a bound is the sum up to
   the bound, a left fold of additions from zero is the sum, and a sum over the pairs selected by a
   condition on the first coordinate and a fixed second coordinate is a sum over first coordinates. -/
import Idealize.ShloMosaic.Lib.ValueIdx
import Idealize.ShloMosaic.PureOps.Ideal.Laws
import Mathlib.Algebra.BigOperators.Fin
import Mathlib.Logic.Equiv.Fin.Basic

noncomputable section

open scoped BigOperators

namespace Cert.SumLemmas

open Idealize.ShloMosaic Idealize.ShloMosaic.ValueIdx

/-! ## The one-hot word -/

/-- The equality test of two words as a one-bit word. -/
theorem cmpi_eq_of_eq {w : Nat} {x y : BitVec w} (h : x = y) : IntOp.cmpi .eq x y = 1#1 := by
  simp [IntOp.cmpi, h]

theorem cmpi_eq_of_ne {w : Nat} {x y : BitVec w} (h : x ≠ y) : IntOp.cmpi .eq x y = 0#1 := by
  have hb : (x == y) = false := by simpa using h
  simp [IntOp.cmpi, hb]

/-- The equality test, widened to 32 bits and converted to an extended real, is the indicator of
    equality. -/
theorem oneHot_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [cmpi_eq_of_eq h, if_pos h]
    have : ((1#1 : BitVec 1).setWidth 32).toInt = 1 := by decide
    rw [this]; simp
  · rw [cmpi_eq_of_ne h, if_neg h]
    have : ((0#1 : BitVec 1).setWidth 32).toInt = 0 := by decide
    rw [this]; simp

/-- A natural number below `2 ^ 32` as a word equals a word exactly when it is the word's value. -/
theorem ofNat_eq_iff {k : Nat} (hk : k < 2 ^ 32) (s : BitVec 32) : BitVec.ofNat 32 k = s ↔ k = s.toNat := by
  constructor
  · intro h; rw [← h, BitVec.toNat_ofNat, Nat.mod_eq_of_lt hk]
  · intro h; apply BitVec.eq_of_toNat_eq; rw [BitVec.toNat_ofNat, Nat.mod_eq_of_lt hk, h]

/-! ## One-hot contractions -/

/-- An indicator times a value is the value where the condition holds, zero elsewhere. -/
theorem ite_one_zero_mul (c : Prop) [Decidable c] (x : EReal) : (if c then (1 : EReal) else 0) * x = if c then x else 0 := by
  split <;> simp

/-- A one-hot contraction reads one term. -/
theorem sum_oneHot_mul {ι : Type*} [Fintype ι] [DecidableEq ι] (a : ι) (f : ι → EReal) :
    ∑ k, (if k = a then (1 : EReal) else 0) * f k = f a := by
  simp only [ite_one_zero_mul, Finset.sum_ite_eq', Finset.mem_univ, if_true]

/-- A one-hot contraction whose hot position is given as a word: it reads the term at the word's
    value when that is an index, and is zero when it is not. -/
theorem sum_oneHot_word_mul {n : Nat} (hn : n ≤ 2 ^ 32) (s : BitVec 32) (f : Fin n → EReal) :
    ∑ k : Fin n, (if BitVec.ofNat 32 k.val = s then (1 : EReal) else 0) * f k
      = if h : s.toNat < n then f ⟨s.toNat, h⟩ else 0 := by
  have hk : ∀ k : Fin n, (BitVec.ofNat 32 k.val = s) ↔ k.val = s.toNat := fun k =>
    ofNat_eq_iff (lt_of_lt_of_le k.isLt hn) s
  by_cases h : s.toNat < n
  · rw [dif_pos h]
    have : ∀ k : Fin n, (if BitVec.ofNat 32 k.val = s then (1 : EReal) else 0) = if k = ⟨s.toNat, h⟩ then 1 else 0 := by
      intro k
      by_cases hks : k.val = s.toNat
      · rw [if_pos ((hk k).2 hks), if_pos (Fin.ext hks)]
      · rw [if_neg (fun e => hks ((hk k).1 e)), if_neg (fun e => hks (congrArg Fin.val e))]
    simp only [this]
    exact sum_oneHot_mul _ f
  · rw [dif_neg h]
    apply Finset.sum_eq_zero
    intro k _
    rw [if_neg (fun e => h (by rw [← (hk k).1 e]; exact k.isLt)), zero_mul]

/-! ## A sum over blocks with a vanishing tail -/

/-- A sum over `nb` blocks of `bs` terms of a function on `Fin N`, `N = nb * bs`, that vanishes from `m` on
    is the sum over `Fin m`. The term of block `t` at place `r` is the one at `bs * t + r`. -/
theorem sum_blocks {M : Type*} [AddCommMonoid M] {nb bs m N : Nat} (hN : nb * bs = N) (hm : m ≤ N) (g : Fin N → M)
    (hz : ∀ i : Fin N, m ≤ i.val → g i = 0) (idx : Fin nb → Fin bs → Fin N)
    (hidx : ∀ t r, (idx t r).val = bs * t.val + r.val) :
    ∑ t : Fin nb, ∑ r : Fin bs, g (idx t r) = ∑ e : Fin m, g (Fin.castLE hm e) := by
  subst hN
  have h1 : ∑ t : Fin nb, ∑ r : Fin bs, g (idx t r) = ∑ i : Fin (nb * bs), g i := by
    rw [← Fintype.sum_prod_type' (f := fun t r => g (idx t r))]
    rw [← Equiv.sum_comp (finProdFinEquiv (m := nb) (n := bs)) g]
    refine Finset.sum_congr rfl fun p _ => congrArg g (Fin.ext ?_)
    rw [hidx]; simp [finProdFinEquiv, Nat.add_comm]
  rw [h1]
  -- both sides as sums over ranges of naturals
  let g' : ℕ → M := fun i => if h : i < nb * bs then g ⟨i, h⟩ else 0
  have h2 : ∑ i : Fin (nb * bs), g i = ∑ i ∈ Finset.range (nb * bs), g' i := by
    rw [← Fin.sum_univ_eq_sum_range g' (nb * bs)]
    refine Finset.sum_congr rfl fun i _ => ?_
    show g i = if h : i.val < nb * bs then g ⟨i.val, h⟩ else 0
    rw [dif_pos i.isLt]
  have h3 : ∑ e : Fin m, g (Fin.castLE hm e) = ∑ i ∈ Finset.range m, g' i := by
    rw [← Fin.sum_univ_eq_sum_range g' m]
    refine Finset.sum_congr rfl fun e _ => ?_
    show g (Fin.castLE hm e) = if h : e.val < nb * bs then g ⟨e.val, h⟩ else 0
    rw [dif_pos (lt_of_lt_of_le e.isLt hm)]; rfl
  rw [h2, h3]
  symm
  apply Finset.sum_subset (Finset.range_subset_range.2 hm)
  intro i hi hni
  have hi' : i < nb * bs := Finset.mem_range.1 hi
  have hmi : m ≤ i := Nat.le_of_not_lt (fun h => hni (Finset.mem_range.2 h))
  show (if h : i < nb * bs then g ⟨i, h⟩ else 0) = 0
  rw [dif_pos hi']; exact hz _ hmi

/-! ## A left fold of additions from zero -/

/-- The left fold of additions from zero along the indices in order is the sum. -/
theorem foldl_finRange_add {M : Type*} [AddCommMonoid M] {n : Nat} (f : Fin n → M) :
    (List.finRange n).foldl (fun acc t => acc + f t) 0 = ∑ t, f t := by
  rw [Fin.sum_univ_def, List.sum_eq_foldl, List.foldl_map]

/-- The same along the naturals below `n`. -/
theorem foldl_range_add {M : Type*} [AddCommMonoid M] (n : Nat) (f : ℕ → M) :
    (List.range n).foldl (fun acc t => acc + f t) 0 = ∑ t ∈ Finset.range n, f t := by
  induction n with
  | zero => simp
  | succ k ih => rw [List.range_succ, List.foldl_append, ih, Finset.sum_range_succ]; rfl

/-- The recursion that adds one term per step from zero is the sum over the steps taken. -/
theorem rec_add_eq_sum {M : Type*} [AddCommMonoid M] (f : ℕ → M) (n : Nat) :
    (Nat.rec (0 : M) (fun k acc => acc + f k) n : M) = ∑ t ∈ Finset.range n, f t := by
  induction n with
  | zero => simp
  | succ k ih => rw [Finset.sum_range_succ, ← ih]

/-- A sum of functions read at a point is the sum of the values there. -/
theorem sum_fn_apply {ι κ : Type*} {M : Type*} [AddCommMonoid M] (s : Finset ι) (f : ι → κ → M) (x : κ) :
    (∑ t ∈ s, f t) x = ∑ t ∈ s, f t x := Finset.sum_apply x s f

/-! ## A filtered sum over pairs -/

/-- A sum over the rank-2 indices whose first coordinate satisfies `P` and whose second coordinate is `c`
    is the sum, over the first coordinates, of the terms at `(e, c)` where `P e` holds. -/
theorem sum_filter_idx2 {M : Type*} [AddCommMonoid M] {n0 n1 : Nat} (Q : (⟨2, ![n0, n1]⟩ : Shape).Idx → Prop) [DecidablePred Q]
    (P : Fin n0 → Prop) [DecidablePred P] (c : Fin n1) (hQ : ∀ e c', Q (ix2 e c') ↔ P e ∧ c' = c)
    (u : (⟨2, ![n0, n1]⟩ : Shape).Idx → M) :
    ∑ j ∈ Finset.univ.filter Q, u j = ∑ e : Fin n0, if P e then u (ix2 e c) else 0 := by
  rw [Finset.sum_filter, sum_idx2]
  refine Finset.sum_congr rfl fun e _ => ?_
  by_cases hP : P e
  · rw [if_pos hP, Finset.sum_eq_single c]
    · rw [if_pos ((hQ e c).2 ⟨hP, rfl⟩)]
    · intro b _ hb; rw [if_neg (fun h => hb ((hQ e b).1 h).2)]
    · intro h; exact absurd (Finset.mem_univ c) h
  · rw [if_neg hP]
    apply Finset.sum_eq_zero
    intro b _; rw [if_neg (fun h => hP ((hQ e b).1 h).1)]

end Cert.SumLemmas

end
-- ==== Proof.LoopValue.lean ====
/- What the idealized kernel's loop over the 21 classes computes on one pair of tiles.

   One trip of the loop, for the class word `c = trip + 1`, takes three sums over the [256, 1024]
   tile of indicators (true label is `c`; predicted label is `c`; both are), stacks them as a column
   [3, 1], multiplies by the one-hot row [1, 21] of the class and adds the [3, 21] product to the
   carried vector. Read at row `r` and column `k` a trip therefore adds the count of kind `r` for the
   trip's class when the trip is `k` and zero otherwise; folded over the 21 trips from the zero
   vector the entry `(r, k)` is the count of kind `r` for class `k` over the tile. -/
import proofs.«181553_j41497974014422_1_alg».proof.Proof.Blocks
import proofs.«181553_j41497974014422_1_alg».proof.Proof.LibSumLemmas
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

open scoped BigOperators

namespace Cert.KernelIdeal.HistValue

open Cert.KernelIdeal Cert.KernelIdeal.Gen Idealize.ShloMosaic Idealize.ShloMosaic.ValueIdx

/-! ## The zero block and the final accumulation -/

/-- The block the first point of a run stores is zero everywhere. -/
theorem pay1_apply (j : S1x3x21.Idx) : k0_pay1 (F := Ideal) j = 0 := by
  unfold k0_pay1
  show Ideal.ofBits .f32 0x00000000#32 = 0
  exact Ideal.ofBits_zero_f32

/-- The zero vector the loop starts from is zero everywhere. -/
theorem pay2_apply (j : S3x21.Idx) : k0_pay2 (F := Ideal) j = 0 := by
  unfold k0_pay2
  show Ideal.ofBits .f32 0x00000000#32 = 0
  exact Ideal.ofBits_zero_f32

/-- What a point stores back: the block read, plus the loop's vector, entry by entry. -/
theorem pay4_apply (v : FVec Ideal S3x21 .f32) (xo : Vec Ideal S1x3x21 .f32) (r : Fin 3) (k : Fin 21) :
    k0_pay4 (F := Ideal) v xo (ix3 0 r k) = xo (ix3 0 r k) + v (ix2 r k) := by
  unfold k0_pay4
  show shapeCast S1x3x21 xo shapeCasts_S1x3x21_S1x3x21 (ix3 0 r k)
      + shapeCast S1x3x21 v shapeCasts_S3x21_S1x3x21 (ix3 0 r k) = _
  rw [shapeCast_self, shapeCast_ab_1ab_apply]

/-- The loop runs 21 trips. -/
theorem trips_eq : k0_t1_loop.trips = 21 := by decide

/-! ## Words -/

/-- The class word of trip `kk`: the induction variable plus one is the word `kk + 1`. -/
theorem tripWord (kk : Fin k0_t1_loop.trips) :
    Scalar.addi (Scf.iv 0#32 1#32 kk.val) 1#32 = Cert.Hist.cls (Fin.cast trips_eq kk) := by
  show (0#32 + BitVec.ofNat 32 kk.val * 1#32) + 1#32 = BitVec.ofNat 32 (kk.val + 1)
  rw [BitVec.mul_one, BitVec.zero_add, BitVec.ofNat_add]

/-- The column word at column `k`: the lane number plus one is the word `k + 1`. -/
theorem colWord (k : Fin 21) : IntOp.addi (BitVec.ofNat 32 k.val) 1#32 = Cert.Hist.cls k := by
  show BitVec.ofNat 32 k.val + 1#32 = BitVec.ofNat 32 (k.val + 1)
  rw [BitVec.ofNat_add]

/-- Two classes have the same word only when they are the same class. -/
theorem cls_eq_iff (k k' : Fin 21) : Cert.Hist.cls k = Cert.Hist.cls k' ↔ k = k' := by
  unfold Cert.Hist.cls
  rw [Cert.SumLemmas.ofNat_eq_iff (by have := k.isLt; omega), BitVec.toNat_ofNat,
    Nat.mod_eq_of_lt (by have := k'.isLt; omega)]
  constructor
  · intro h; exact Fin.ext (by omega)
  · intro h; rw [h]

/-! ## The total over a tile -/

/-- The lane sum, then the row sum, then the one element extracted: the sum over the rows of the
    sums over the columns. -/
theorem tileSum_eq (f : FVec Ideal S256x1024 .f32)
    (h1 : S256x1024.Reduces [1] S256) (c1 : S256.ShapeCasts S256x1) (h0 : S256x1.Reduces [0] S1)
    (c0 : S1.ShapeCasts S1x1) (hp : ∀ a, (![0, 0] : Fin 2 → Nat) a < S1x1.size a)
    (hφ : FKind.Formats .f32) (hacc : (0x00000000#32 : BitVec 32) = FKind.add.neutral .f32 hφ) :
    extractAt ![0, 0]
        (shapeCast S1x1
          (multiReduction (F := Ideal) .add [0] S1
            (shapeCast S256x1 (multiReduction (F := Ideal) .add [1] S256 f 0x00000000#32 h1 hφ hacc) c1)
            0x00000000#32 h0 hφ hacc) c0) hp
      = ∑ row : Fin 256, ∑ col : Fin 1024, f (ix2 row col) := by
  unfold extractAt
  have e00 : (fun a : Fin S1x1.rank => (⟨(![0, 0] : Fin 2 → Nat) a, hp a⟩ : Fin (S1x1.size a)))
      = ix2 (0 : Fin 1) (0 : Fin 1) := by
    funext a; match a with | ⟨0, _⟩ => rfl | ⟨1, _⟩ => rfl
  rw [e00]
  refine (shapeCast_a_1a_apply _ c0 0 0).trans ?_
  refine (Ideal.multiReduction_add_single _ _ h0 hφ hacc (ix1 0)).trans ?_
  show ∑ row : Fin 256, _ = _
  refine Finset.sum_congr rfl fun row _ => ?_
  have e1 : h0.lift (ix1 (0 : Fin 1)) row = ix2 row (0 : Fin 1) := by
    funext a; match a with | ⟨0, _⟩ => rfl | ⟨1, _⟩ => rfl
  rw [e1]
  refine (shapeCast_apply _ c1 (ix2 row (0 : Fin 1)) (ix1 row) ?_).trans ?_
  · rw [Shape.rowMajor_val_one, Shape.rowMajor_val_two]
    show row.val = row.val * 1 + 0
    omega
  refine (Ideal.multiReduction_add_single f _ h1 hφ hacc (ix1 row)).trans ?_
  show ∑ col : Fin 1024, _ = _
  refine Finset.sum_congr rfl fun col _ => ?_
  congr 1
  funext a; match a with | ⟨0, _⟩ => rfl | ⟨1, _⟩ => rfl

/-! ## The indicators -/

/-- The conjunction of two equality tests, widened and converted, is the indicator of both. -/
theorem oneHot_and (a b c : BitVec 32) :
    (FloatOps.sitofp (F := Ideal) .f32
        ((IntOp.andi (IntOp.cmpi .eq a c) (IntOp.cmpi .eq b c)).setWidth 32) : EReal)
      = if a = c ∧ b = c then 1 else 0 := by
  by_cases ha : a = c
  · by_cases hb : b = c
    · rw [Cert.SumLemmas.cmpi_eq_of_eq ha, if_pos ⟨ha, hb⟩]
      have e : IntOp.andi 1#1 (IntOp.cmpi .eq b c) = IntOp.cmpi .eq b c := by
        rw [Cert.SumLemmas.cmpi_eq_of_eq hb]; rfl
      rw [e, Cert.SumLemmas.oneHot_word, if_pos hb]
    · rw [if_neg (fun h => hb h.2)]
      have e : IntOp.andi (IntOp.cmpi .eq a c) (IntOp.cmpi .eq b c) = IntOp.cmpi .eq b c := by
        rw [Cert.SumLemmas.cmpi_eq_of_ne hb, Cert.SumLemmas.cmpi_eq_of_eq ha]; rfl
      rw [e, Cert.SumLemmas.oneHot_word, if_neg hb]
  · rw [if_neg (fun h => ha h.1)]
    have e : IntOp.andi (IntOp.cmpi .eq a c) (IntOp.cmpi .eq b c) = IntOp.cmpi .eq a c := by
      rw [Cert.SumLemmas.cmpi_eq_of_ne ha]
      show 0#1 &&& _ = 0#1
      exact BitVec.zero_and
    rw [e, Cert.SumLemmas.oneHot_word, if_neg ha]

/-- Kind 0 counts the places whose true label is the class. -/
theorem hit_zero (k : Fin 21) (p t : BitVec 32) :
    Cert.Hist.hit 0 k p t = if t = Cert.Hist.cls k then 1 else 0 := by
  unfold Cert.Hist.hit
  by_cases h : t = Cert.Hist.cls k
  · rw [if_pos h, if_pos (show Cert.Hist.hitP 0 k p t from h)]
  · rw [if_neg h, if_neg (show ¬ Cert.Hist.hitP 0 k p t from h)]

/-- Kind 1 counts the places whose predicted label is the class. -/
theorem hit_one (k : Fin 21) (p t : BitVec 32) :
    Cert.Hist.hit 1 k p t = if p = Cert.Hist.cls k then 1 else 0 := by
  unfold Cert.Hist.hit
  by_cases h : p = Cert.Hist.cls k
  · rw [if_pos h, if_pos (show Cert.Hist.hitP 1 k p t from h)]
  · rw [if_neg h, if_neg (show ¬ Cert.Hist.hitP 1 k p t from h)]

/-- Kind 2 counts the places where both labels are the class. -/
theorem hit_two (k : Fin 21) (p t : BitVec 32) :
    Cert.Hist.hit 2 k p t = if t = Cert.Hist.cls k ∧ p = Cert.Hist.cls k then 1 else 0 := by
  unfold Cert.Hist.hit
  by_cases h : t = Cert.Hist.cls k ∧ p = Cert.Hist.cls k
  · rw [if_pos h, if_pos (show Cert.Hist.hitP 2 k p t from h)]
  · rw [if_neg h, if_neg (show ¬ Cert.Hist.hitP 2 k p t from h)]

/-! ## The column of three counts and the one-hot row -/

/-- The three one-element vectors stacked: entry `r` is the `r`-th scalar. -/
theorem stack3_apply (a b c : EReal) (h : Shape.Concatenates [S1, S1, S1] S3 0) (r : Fin 3) :
    concatenate S3 0 [⟨S1, broadcast S1 a⟩, ⟨S1, broadcast S1 b⟩, ⟨S1, broadcast S1 c⟩] h (ix1 r)
      = (match r with | ⟨0, _⟩ => a | ⟨1, _⟩ => b | ⟨_ + 2, _⟩ => c) := by
  match r with
  | ⟨0, _⟩ => rfl
  | ⟨1, _⟩ => rfl
  | ⟨2, _⟩ => rfl

/-- The column of the three counts, broadcast along the classes: row `r` reads the `r`-th count. -/
theorem col3_apply (a b c : EReal) (hc : Shape.Concatenates [S1, S1, S1] S3 0) (hs : S3.ShapeCasts S3x1)
    (hb : S3x1.Broadcasts S3x21) (r : Fin 3) (k : Fin 21) :
    broadcastTo S3x21
        (shapeCast S3x1
          (concatenate S3 0 [⟨S1, broadcast S1 a⟩, ⟨S1, broadcast S1 b⟩, ⟨S1, broadcast S1 c⟩] hc) hs) hb
        (ix2 r k)
      = (match r with | ⟨0, _⟩ => a | ⟨1, _⟩ => b | ⟨_ + 2, _⟩ => c) := by
  refine (broadcastTo_apply _ hb (ix2 r k) (ix2 r (0 : Fin 1)) fun ax => ?_).trans ?_
  · match ax with
    | ⟨0, _⟩ => rfl
    | ⟨1, _⟩ => rfl
  refine (shapeCast_apply _ hs (ix2 r (0 : Fin 1)) (ix1 r) ?_).trans ?_
  · rw [Shape.rowMajor_val_one, Shape.rowMajor_val_two]
    show r.val = r.val * 1 + 0
    omega
  exact stack3_apply a b c hc r

/-- The one-hot row of the class word `c`, broadcast along the kinds: column `k` reads the
    indicator that class `k`'s word is `c`. -/
theorem row_apply (c : BitVec 32) (hi : S1x21.Iotas .tc 32 [1]) (hlt : 1 < 32)
    (hb : S1x21.Broadcasts S3x21) (r : Fin 3) (k : Fin 21) :
    broadcastTo S3x21
        (sitofp (F := Ideal) .f32
          (extui 32 (cmpi .eq (addi (iota .tc S1x21 32 [1] hi) (broadcast S1x21 1#32)) (broadcast S1x21 c)) hlt))
        hb (ix2 r k)
      = if Cert.Hist.cls k = c then 1 else 0 := by
  refine (broadcastTo_1b_ab_apply _ hb r k).trans ?_
  show FloatOps.sitofp (F := Ideal) .f32
      ((IntOp.cmpi .eq (IntOp.addi (iota .tc S1x21 32 [1] hi (ix2 (0 : Fin 1) k)) 1#32) c).setWidth 32) = _
  rw [iota_single_apply]
  show FloatOps.sitofp (F := Ideal) .f32
      ((IntOp.cmpi .eq (IntOp.addi (BitVec.ofNat 32 k.val) 1#32) c).setWidth 32) = _
  rw [colWord, Cert.SumLemmas.oneHot_word]

/-! ## One trip of the loop, read at an entry -/

/-- Trip `kk` adds, at row `r` and column `k`, the count of kind `r` for the trip's class over the
    tile when `k` is the trip's class, and nothing otherwise. -/
theorem pay3_apply (x0 x1 : Vec Ideal S1x256x1024 .i32) (kk : Fin k0_t1_loop.trips)
    (acc : FVec Ideal S3x21 .f32) (r : Fin 3) (k : Fin 21) :
    k0_pay3 (F := Ideal) x0 x1 kk acc (ix2 r k)
      = acc (ix2 r k) + Cert.Hist.tileCount x0 x1 r (Fin.cast trips_eq kk)
          * (if Fin.cast trips_eq kk = k then 1 else 0) := by
  unfold k0_pay3
  refine (addf_apply _ _ _).trans ?_
  congr 1
  refine (mulf_apply _ _ _).trans ?_
  refine congrArg₂ (· * ·) ?_ ?_
  · refine (col3_apply _ _ _ _ _ _ r k).trans ?_
    unfold Cert.Hist.tileCount
    match r with
    | ⟨0, _⟩ =>
      refine (tileSum_eq _ _ _ _ _ _ _ _).trans ?_
      refine Finset.sum_congr rfl fun row _ => Finset.sum_congr rfl fun col _ => ?_
      show FloatOps.sitofp (F := Ideal) .f32
          ((IntOp.cmpi .eq (shapeCast S256x1024 x1 shapeCasts_S1x256x1024_S256x1024 (ix2 row col))
            (Scalar.addi (Scf.iv 0#32 1#32 kk.val) 1#32)).setWidth 32) = _
      rw [shapeCast_1ab_ab_apply, tripWord, Cert.SumLemmas.oneHot_word]
      exact (hit_zero _ _ _).symm
    | ⟨1, _⟩ =>
      refine (tileSum_eq _ _ _ _ _ _ _ _).trans ?_
      refine Finset.sum_congr rfl fun row _ => Finset.sum_congr rfl fun col _ => ?_
      show FloatOps.sitofp (F := Ideal) .f32
          ((IntOp.cmpi .eq (shapeCast S256x1024 x0 shapeCasts_S1x256x1024_S256x1024 (ix2 row col))
            (Scalar.addi (Scf.iv 0#32 1#32 kk.val) 1#32)).setWidth 32) = _
      rw [shapeCast_1ab_ab_apply, tripWord, Cert.SumLemmas.oneHot_word]
      exact (hit_one _ _ _).symm
    | ⟨2, _⟩ =>
      refine (tileSum_eq _ _ _ _ _ _ _ _).trans ?_
      refine Finset.sum_congr rfl fun row _ => Finset.sum_congr rfl fun col _ => ?_
      show FloatOps.sitofp (F := Ideal) .f32
          ((IntOp.andi
            (IntOp.cmpi .eq (shapeCast S256x1024 x1 shapeCasts_S1x256x1024_S256x1024 (ix2 row col))
              (Scalar.addi (Scf.iv 0#32 1#32 kk.val) 1#32))
            (IntOp.cmpi .eq (shapeCast S256x1024 x0 shapeCasts_S1x256x1024_S256x1024 (ix2 row col))
              (Scalar.addi (Scf.iv 0#32 1#32 kk.val) 1#32))).setWidth 32) = _
      rw [shapeCast_1ab_ab_apply, shapeCast_1ab_ab_apply, tripWord, oneHot_and]
      exact (hit_two _ _ _).symm
  · refine (row_apply _ _ _ _ r k).trans ?_
    rw [tripWord]
    by_cases h : Fin.cast trips_eq kk = k
    · rw [if_pos h, if_pos ((cls_eq_iff _ _).2 h.symm)]
    · rw [if_neg h, if_neg (fun e => h ((cls_eq_iff _ _).1 e).symm)]

/-! ## The loop -/

/-- A left fold whose every step adds a term at the place read adds all the terms there. -/
theorem foldl_read_add {σ ι : Type} (g : ι → σ → σ) (ev : σ → EReal) (f : ι → EReal)
    (hg : ∀ kk acc, ev (g kk acc) = ev acc + f kk) :
    ∀ (l : List ι) (init : σ),
      ev (l.foldl (fun acc kk => g kk acc) init) = l.foldl (fun a kk => a + f kk) (ev init)
  | [], _ => rfl
  | kk :: l, init => by
    rw [List.foldl_cons, List.foldl_cons, foldl_read_add g ev f hg l, hg]

/-- The loop's vector at row `r` and column `k`: the count of kind `r` for class `k` over the tile. -/
theorem loopVal_apply (x0 x1 : Vec Ideal S1x256x1024 .i32) (r : Fin 3) (k : Fin 21) :
    loopVal (F := Ideal) x0 x1 (ix2 r k) = Cert.Hist.tileCount x0 x1 r k := by
  unfold loopVal
  rw [Scf.fold_eq]
  refine (foldl_read_add (fun kk acc => k0_pay3 (F := Ideal) x0 x1 kk acc) (fun v => v (ix2 r k))
    (fun kk => Cert.Hist.tileCount x0 x1 r (Fin.cast trips_eq kk)
      * (if Fin.cast trips_eq kk = k then 1 else 0))
    (fun kk acc => pay3_apply x0 x1 kk acc r k) _ _).trans ?_
  rw [pay2_apply, Cert.SumLemmas.foldl_finRange_add]
  rw [← Equiv.sum_comp (finCongr trips_eq).symm]
  refine Eq.trans (Finset.sum_congr rfl fun k' _ => ?_)
    (Cert.SumLemmas.sum_oneHot_mul k (fun k' => Cert.Hist.tileCount x0 x1 r k'))
  show Cert.Hist.tileCount x0 x1 r k' * (if k' = k then (1 : EReal) else 0) = _
  rw [mul_comm]

end Cert.KernelIdeal.HistValue

end
-- ==== Proof.Pieces.lean ====
/- What one run of the idealized kernel's body leaves in the count block's staging buffer.

   At a point that resets (the first of each run of 64) the body stores the zero block, reads it
   back and stores zero-block + loop value; at every other point it reads the block `xo` the point
   before left and stores `xo` + loop value. -/
import proofs.«181553_j41497974014422_1_alg».proof.Proof.Blocks
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

theorem hz3 : (![0, 0, 0] : Fin 3 → Nat) = fun _ => 0 := funext fun a => by fin_cases a <;> rfl

/-- A point that does not reset: the block the point before left, plus the loop's value on the point's tiles. -/
theorem out_B (c : Dev nD) (i : grid0.Coords) (a3 : Memref sig .tc .vmem S1x256x1024 .i32) (h3 : a3.IsWhole)
    (a4 : Memref sig .tc .vmem S1x256x1024 .i32) (h4 : a4.IsWhole) (a5 : Memref sig .tc .vmem S1x3x21 .f32) (h5 : a5.IsWhole)
    (hc : ¬cond0_0 i) (x0 x1 : Vec F S1x256x1024 .i32) (xo : Vec F S1x3x21 .f32) :
    out0_B_2 c i a3 h3 a4 h4 a5 h5 hc x0 x1 xo = k0_pay4 (loopVal x0 x1) xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz3]
  simp only [View.readAt_eq_ld, h3.read_unread, h4.read_unread, h5.read_unread,
    View.ld_unit_zero (S := S1x256x1024) hz3, View.ld_unit_zero (S := S1x3x21) hz3]
  rfl

/-- A point that resets: the zero block, plus the loop's value on the point's tiles. -/
theorem out_A (c : Dev nD) (i : grid0.Coords) (a3 : Memref sig .tc .vmem S1x256x1024 .i32) (h3 : a3.IsWhole)
    (a4 : Memref sig .tc .vmem S1x256x1024 .i32) (h4 : a4.IsWhole) (a5 : Memref sig .tc .vmem S1x3x21 .f32) (h5 : a5.IsWhole)
    (hc : cond0_0 i) (x0 x1 : Vec F S1x256x1024 .i32) :
    out0_A_2 c i a3 h3 a4 h4 a5 h5 hc x0 x1 = k0_pay4 (loopVal x0 x1) (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x3x21) hz3, View.readCov_unit_zero (S := S1x3x21) _ hz3]
  simp only [View.readAt_eq_ld, h3.read_unread, h4.read_unread,
    View.ld_unit_zero (S := S1x256x1024) hz3]
  rfl

end Cert.KernelIdeal.HistValue

end
-- ==== Proof.Accum.lean ====
/- The idealized kernel's count array after the run.

   The count block is carried from grid point to grid point: reset at the first point of each run
   of 64, added to at every point, written back after the last. So after point `n` its entry
   (kind `r`, class `k`) is the sum of the tile counts of the points of `n`'s run up to `n`, and
   the array ends holding, in block `o`, the sum over the 64 tiles of run `o`. -/
import proofs.«181553_j41497974014422_1_alg».proof.Proof.Pieces
import Idealize.ShloMosaic.Lib.Pipeline.Value
import Idealize.ShloMosaic.Lib.ValueIdx
import Mathlib.Algebra.BigOperators.Fin

noncomputable section

open scoped BigOperators
open Idealize.ShloMosaic Idealize.ShloMosaic.TcCoe Idealize.SL.Sem Idealize.ShloMosaic.ValueIdx
open Idealize.ShloMosaic.Pipeline (Dat)

namespace Cert.KernelIdeal.HistValue

open Cert.KernelIdeal Cert.KernelIdeal.Gen

/-- What the body's arithmetic computes, index by index, over the extended reals: the loop's value on a
    pair of tiles is their tile counts, the final addition is pointwise, the reset block is zero. -/
structure BodyFacts : Prop where
  loop : ∀ (x0 x1 : Vec Ideal S1x256x1024 .i32) (r : Fin 3) (k : Fin 21),
    loopVal (F := Ideal) x0 x1 (ix2 r k) = Cert.Hist.tileCount x0 x1 r k
  pay4 : ∀ (v : FVec Ideal S3x21 .f32) (xo : Vec Ideal S1x3x21 .f32) (r : Fin 3) (k : Fin 21),
    k0_pay4 (F := Ideal) v xo (ix3 0 r k) = xo (ix3 0 r k) + v (ix2 r k)
  pay1 : ∀ j : S1x3x21.Idx, k0_pay1 (F := Ideal) j = 0

variable (m : (ℓ : Loc nD τ sig) → Buf (Elt Ideal) ℓ)

/-- The count of kind `r` for class `k` on the tiles of grid point `j` (zero past the grid). -/
def tc (c : Dev nD) (r : Fin 3) (k : Fin 21) (j : ℕ) : EReal :=
  if hj : j < cfg0.N then Cert.Hist.tileCount (xblk0 m c ⟨j, hj⟩) (xblk1 m c ⟨j, hj⟩) r k else 0

theorem tc_of_lt (c : Dev nD) (r : Fin 3) (k : Fin 21) (j : ℕ) (hj : j < cfg0.N) :
    tc m c r k j = Cert.Hist.tileCount (xblk0 m c ⟨j, hj⟩) (xblk1 m c ⟨j, hj⟩) r k := dif_pos hj

/-- At a point that resets, the block holds the point's own tile counts. -/
theorem outsAt_reset (hB : BodyFacts) (c : Dev nD) (t : Fin cfg0.N) (h0 : t.val % 64 = 0) (r : Fin 3) (k : Fin 21) :
    outsAt0 m c t.val t.isLt (ix3 0 r k) = Cert.Hist.tileCount (xblk0 m c t) (xblk1 m c t) r k := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (xblk0 m c t) (xblk1 m c t)) (ix3 0 r k)).trans ?_
  rw [hB.pay4, hB.pay1, hB.loop, zero_add]

/-- At any other point, it holds what the point before left plus the point's own tile counts. -/
theorem outsAt_step (hB : BodyFacts) (c : Dev nD) (t : Fin cfg0.N) (h0 : ¬t.val % 64 = 0) (r : Fin 3) (k : Fin 21) :
    outsAt0 m c t.val t.isLt (ix3 0 r k)
      = outsAt0 m c (t.val - 1) (Nat.lt_of_le_of_lt (Nat.sub_le _ _) t.isLt) (ix3 0 r k)
        + Cert.Hist.tileCount (xblk0 m c t) (xblk1 m c t) r k := by
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (xblk0 m c t) (xblk1 m c t)
    (outsAt0 m c (t.val - 1) (Nat.lt_of_le_of_lt (Nat.sub_le _ _) t.isLt))) (ix3 0 r k)).trans ?_
  rw [hB.pay4, hB.loop]

/-- After point `n` the block holds the sum of the tile counts of the points of `n`'s run of 64 up to `n`:
    by induction on the point. -/
theorem outsAt_apply (hB : BodyFacts) (c : Dev nD) (r : Fin 3) (k : Fin 21) :
    ∀ (n : ℕ) (h : n < cfg0.N), outsAt0 m c n h (ix3 0 r k)
      = ∑ s ∈ Finset.range (n % 64 + 1), tc m c r k (64 * (n / 64) + s)
  | 0, h => by
    rw [show outsAt0 m c 0 h (ix3 0 r k) = _ from outsAt_reset m hB c ⟨0, h⟩ rfl r k]
    rw [show (0 % 64 + 1) = 1 from rfl, Finset.sum_range_one, tc_of_lt m c r k _ (by simpa using h)]
  | n + 1, h => by
    by_cases h0 : (n + 1) % 64 = 0
    · rw [show outsAt0 m c (n + 1) h (ix3 0 r k) = _ from outsAt_reset m hB c ⟨n + 1, h⟩ h0 r k]
      rw [h0, Finset.sum_range_one, tc_of_lt m c r k _ (by omega)]
      have e : 64 * ((n + 1) / 64) + 0 = n + 1 := by omega
      congr 2 <;> exact (Fin.ext e).symm
    · rw [show outsAt0 m c (n + 1) h (ix3 0 r k) = _ from outsAt_step m hB c ⟨n + 1, h⟩ h0 r k]
      show outsAt0 m c n _ (ix3 0 r k) + _ = _
      rw [outsAt_apply hB c r k n]
      have e1 : (n + 1) % 64 = n % 64 + 1 := by omega
      have e2 : (n + 1) / 64 = n / 64 := by omega
      rw [e1, e2, Finset.sum_range_succ (n := n % 64 + 1)]
      congr 1
      have e3 : 64 * (n / 64) + (n % 64 + 1) = n + 1 := by omega
      rw [tc_of_lt m c r k _ (by omega)]
      congr 2 <;> exact (Fin.ext e3).symm

/-- The count array the run ends with: in block `o`, kind `r`, class `k`, the sum of the tile counts of the 64
    points of run `o`. -/
def G (c : Dev nD) : S2x3x21.Idx → EReal :=
  fun i => ∑ s : Fin 64, Cert.Hist.tileCount (xblk0 m c (pt (i 0) s)) (xblk1 m c (pt (i 0) s)) (i 1) (i 2)

/-- The count window's index map, decided over the grid: point `t` holds block `t / 64` on the first axis and
    block `0` on the other two. -/
theorem idx_facts2 : ∀ t : Fin cfg0.N, win0_2.index t (0 : Fin 3) = t.val / 64
    ∧ win0_2.index t (1 : Fin 3) = 0 ∧ win0_2.index t (2 : Fin 3) = 0 :=
  (by decide +kernel : ∀ t : Fin grid0.N, _)

/-- What a flushing point writes back — the last point of a run of 64 — is that run's block of `G`. -/
theorem flushed_eq (hB : BodyFacts) (c : Dev nD) (t : Fin cfg0.N) (hf : (cfg0.win 2).flush t = true) :
    (dats m 0 c).flushed 2 t = ((cfg0.win 2).blk t).view.read (Elt Ideal) (G m c) := by
  have h63 : t.val % 64 = 63 := (flush0_2 t).mp hf
  have hN : t.val < 128 := lt_of_lt_of_eq t.isLt (show cfg0.N = 128 from N_0)
  obtain ⟨e0, e1, e2⟩ := idx_facts2 t
  show (cfg0.win 2).cut (grid0.coords t) ((dats m 0 c).after 2 t) = _
  rw [after0_2]
  funext j
  show outsAt0 m c t.val t.isLt j = G m c (((cfg0.win 2).blk t).view.emb j)
  obtain ⟨a, r, k, rfl⟩ : ∃ (a : Fin 1) (r : Fin 3) (k : Fin 21), j = ix3 a r k := ⟨j 0, j 1, j 2, eq_ix3 j⟩
  obtain rfl : a = 0 := Subsingleton.elim _ _
  rw [outsAt_apply m hB c r k t.val t.isLt, h63]
  have hemb : ((cfg0.win 2).blk t).view.emb (ix3 (0 : Fin 1) r k) = ix3 (⟨t.val / 64, by omega⟩ : Fin 2) r k := by
    funext a; apply Fin.ext
    match a with
    | ⟨0, _⟩ => show win0_2.index t (0 : Fin 3) * 1 + 1 * 0 = t.val / 64; omega
    | ⟨1, _⟩ => show win0_2.index t (1 : Fin 3) * 3 + 1 * r.val = r.val; omega
    | ⟨2, _⟩ => show win0_2.index t (2 : Fin 3) * 21 + 1 * k.val = k.val; omega
  rw [hemb]
  show _ = ∑ s : Fin 64, Cert.Hist.tileCount (xblk0 m c (pt ⟨t.val / 64, by omega⟩ s)) (xblk1 m c (pt ⟨t.val / 64, by omega⟩ s)) r k
  rw [show (63 + 1) = 64 from rfl, ← Fin.sum_univ_eq_sum_range (fun s => tc m c r k (64 * (t.val / 64) + s)) 64]
  refine Finset.sum_congr rfl fun s _ => ?_
  rw [tc_of_lt m c r k _ (lt_of_lt_of_eq (by have := s.isLt; omega : 64 * (t.val / 64) + s.val < 128)
    (show (128 : ℕ) = cfg0.N from N_0.symm))]
  rfl

/-- An index of the count array is in point `t`'s block iff each coordinate is in the block's range on its axis. -/
theorem mem_blk2 (t : Fin cfg0.N) (i : S2x3x21.Idx) :
    i ∈ ((cfg0.win 2).blk t).view.set ↔ ∀ a : Fin 3, win0_2.index t a * S1x3x21.size a ≤ (i a).val
      ∧ (i a).val < win0_2.index t a * S1x3x21.size a + S1x3x21.size a := by
  show i ∈ ((View.whole main_v0).slice (win0_2.rect t)).set ↔ _
  rw [View.set_slice_whole, Rect.mem_set_unit]
  exact Iff.rfl

/-- The two flushed blocks cover the count array, so it ends holding `G`. -/
theorem final2 (hB : BodyFacts) (c : Dev nD) : (dats m 0 c).arrAt 2 cfg0.N = G m c :=
  (dats m 0 c).arrAt_eq_of_cover 2 (G m c) (flushed_eq m hB c) fun i => by
    have hi0 : (i 0).val < 2 := (i 0).isLt
    have hi1 : (i 1).val < 3 := (i 1).isLt
    have hi2 : (i 2).val < 21 := (i 2).isLt
    have hlt : 64 * (i 0).val + 63 < cfg0.N :=
      lt_of_lt_of_eq (by omega : 64 * (i 0).val + 63 < 128) (show (128 : ℕ) = cfg0.N from N_0.symm)
    refine ⟨⟨64 * (i 0).val + 63, hlt⟩, (flush0_2 _).mpr (by show (64 * (i 0).val + 63) % 64 = 63; omega), ?_⟩
    rw [mem_blk2]
    obtain ⟨e0, e1, e2⟩ := idx_facts2 ⟨64 * (i 0).val + 63, hlt⟩
    have e0' : win0_2.index ⟨64 * (i 0).val + 63, hlt⟩ (0 : Fin 3) = (64 * (i 0).val + 63) / 64 := e0
    intro a
    match a with
    | ⟨0, _⟩ =>
      show win0_2.index ⟨64 * (i 0).val + 63, hlt⟩ (0 : Fin 3) * 1 ≤ (i 0).val
        ∧ (i 0).val < win0_2.index ⟨64 * (i 0).val + 63, hlt⟩ (0 : Fin 3) * 1 + 1
      omega
    | ⟨1, _⟩ =>
      show win0_2.index ⟨64 * (i 0).val + 63, hlt⟩ (1 : Fin 3) * 3 ≤ (i 1).val
        ∧ (i 1).val < win0_2.index ⟨64 * (i 0).val + 63, hlt⟩ (1 : Fin 3) * 3 + 3
      omega
    | ⟨2, _⟩ =>
      show win0_2.index ⟨64 * (i 0).val + 63, hlt⟩ (2 : Fin 3) * 21 ≤ (i 2).val
        ∧ (i 2).val < win0_2.index ⟨64 * (i 0).val + 63, hlt⟩ (2 : Fin 3) * 21 + 21
      omega

end Cert.KernelIdeal.HistValue

end
-- ==== Proof.BlockSum.lean ====
/- The per-tile counts of the kernel's 128 tiles add up to the count over the whole arrays.

   Grid point `t` (of 128) reads, of each label array of shape [32, 1024, 1024], the tile of 256 rows
   `[t / 4, (t % 4) * 256 .. (t % 4) * 256 + 255, all 1024 columns]`: a block's coordinate on an axis is the
   window's block index there times the block's extent plus the coordinate inside the block, and the block
   indices are `(t / 4, t % 4, 0)` at every point of the grid. So a sum over the places of the array, written as
   the triple sum over image, row and column, is regrouped: the 1024 rows of an image are four groups of 256,
   the 32 images' four groups are the 128 tiles, and the 128 tiles are two runs of 64. The regrouping is proved
   once for an arbitrary function of the place with values in a commutative additive monoid and then read at the
   indicator that the counts sum. -/
import proofs.«181553_j41497974014422_1_alg».proof.Proof.Blocks
import proofs.«181553_j41497974014422_1_alg».proof.Proof.LibSumLemmas
import Idealize.ShloMosaic.Lib.Pipeline.Value
import Idealize.ShloMosaic.Lib.ValueIdx
import Mathlib.Algebra.BigOperators.Fin
import Mathlib.Logic.Equiv.Fin.Basic

noncomputable section

open scoped BigOperators

open Idealize.ShloMosaic Idealize.ShloMosaic.TcCoe Idealize.SL.Sem
open Idealize.ShloMosaic.Pipeline (Dat)

/-! ## Regrouping a sum over [32, 1024, 1024] by tiles -/

namespace Cert.TileSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over `nb * bs` places is the sum over `nb` blocks of `bs` places each; the place of block `t` at
    offset `r` is `bs * t + r`. -/
theorem sum_split {M : Type*} [AddCommMonoid M] {nb bs N : Nat} (hN : nb * bs = N) (g : Fin N → M)
    (idx : Fin nb → Fin bs → Fin N) (hidx : ∀ t r, (idx t r).val = bs * t.val + r.val) :
    ∑ i : Fin N, g i = ∑ t : Fin nb, ∑ r : Fin bs, g (idx t r) := by
  rw [Cert.SumLemmas.sum_blocks hN le_rfl g (fun i h => absurd i.isLt (Nat.not_lt.2 h)) idx hidx]
  rfl

/-- The sum over an array of 32 images of 1024 rows and 1024 columns, taken tile by tile: 128 tiles of 256 rows,
    tile `t` being rows `(t % 4) * 256 …` of image `t / 4`, the tiles numbered `64 * o + s` in two runs of 64. -/
theorem sum_by_tiles {M : Type*} [AddCommMonoid M] {N : Nat} (hN : N = 128) (pt : Fin 2 → Fin 64 → Fin N)
    (hpt : ∀ o s, (pt o s).val = 64 * o.val + s.val)
    (f : Fin 32 → Fin 1024 → Fin 1024 → M) (g : Fin N → Fin 256 → Fin 1024 → M)
    (hg : ∀ (t : Fin N) (row : Fin 256) (col : Fin 1024) (a : Fin 32) (h : Fin 1024),
      a.val = t.val / 4 → h.val = (t.val % 4) * 256 + row.val → g t row col = f a h col) :
    ∑ o : Fin 2, ∑ s : Fin 64, ∑ row : Fin 256, ∑ col : Fin 1024, g (pt o s) row col
      = ∑ a : Fin 32, ∑ h : Fin 1024, ∑ w : Fin 1024, f a h w := by
  subst hN
  -- the two runs of 64 tiles are the 128 tiles
  rw [← sum_split (nb := 2) (bs := 64) rfl (fun t => ∑ row : Fin 256, ∑ col : Fin 1024, g t row col) pt hpt]
  -- the 1024 rows of an image are four groups of 256
  have hrows : ∀ a : Fin 32, ∑ h : Fin 1024, ∑ w : Fin 1024, f a h w
      = ∑ r : Fin 4, ∑ row : Fin 256, ∑ w : Fin 1024, f a ⟨256 * r.val + row.val, by omega⟩ w := fun a =>
    sum_split (nb := 4) (bs := 256) rfl (fun h => ∑ w : Fin 1024, f a h w) (fun r row => ⟨256 * r.val + row.val, by omega⟩)
      (fun _ _ => rfl)
  simp only [hrows]
  -- the 128 tiles are the 32 images' four groups
  rw [sum_split (nb := 32) (bs := 4) rfl (fun t => ∑ row : Fin 256, ∑ col : Fin 1024, g t row col)
    (fun a r => ⟨4 * a.val + r.val, by omega⟩) (fun _ _ => rfl)]
  refine Finset.sum_congr rfl fun a _ => Finset.sum_congr rfl fun r _ => Finset.sum_congr rfl fun row _ =>
    Finset.sum_congr rfl fun col _ => ?_
  exact hg _ row col a _ (by show a.val = (4 * a.val + r.val) / 4; omega)
    (by show 256 * r.val + row.val = ((4 * a.val + r.val) % 4) * 256 + row.val; omega)

end Cert.TileSums

/-! ## The kernel's tiles as parts of the arrays -/

namespace Cert.KernelIdeal.HistValue

open Cert.KernelIdeal Cert.KernelIdeal.Gen Idealize.ShloMosaic.ValueIdx

variable (m : (ℓ : Loc nD τ sig) → Buf (Elt Ideal) ℓ)

/-- The block indices of the window of predicted labels at point `t`: image `t / 4`, row group `t % 4`, all columns. -/
theorem index0 : ∀ t : Fin grid0.N, win0_0.index t 0 = t.val / 4 ∧ win0_0.index t 1 = t.val % 4 ∧ win0_0.index t 2 = 0 := by
  decide +kernel

/-- The window of true labels has the same block indices. -/
theorem index1 : ∀ t : Fin grid0.N, win0_1.index t 0 = t.val / 4 ∧ win0_1.index t 1 = t.val % 4 ∧ win0_1.index t 2 = 0 := by
  decide +kernel

/-- The tile of predicted labels of point `t` at `(0, row, col)` is the array at `(t / 4, (t % 4) * 256 + row, col)`. -/
theorem xblk0_apply (c : Dev nD) (t : Fin cfg0.N) (row : Fin 256) (col : Fin 1024) (a : Fin 32) (h : Fin 1024)
    (ha : a.val = t.val / 4) (hh : h.val = (t.val % 4) * 256 + row.val) :
    xblk0 m c t (ix3 0 row col) = m ((c : Thread nD τ).loc main_arg0) (ix3 a h col) := by
  show iblk m c 0 t _ = _
  unfold iblk
  rw [View.read_apply]
  show V m c main_arg0 _ = _
  rw [V_main_arg0]
  congr 1
  funext d
  apply Fin.ext
  obtain ⟨i0, i1, i2⟩ := index0 t
  match d with
  | ⟨0, _⟩ => show win0_0.index t 0 * 1 + 1 * 0 = a.val; rw [i0, ha]; omega
  | ⟨1, _⟩ => show win0_0.index t 1 * 256 + 1 * row.val = h.val; rw [i1, hh]; omega
  | ⟨2, _⟩ => show win0_0.index t 2 * 1024 + 1 * col.val = col.val; rw [i2]; omega

/-- The tile of true labels of point `t` at `(0, row, col)` is the array at `(t / 4, (t % 4) * 256 + row, col)`. -/
theorem xblk1_apply (c : Dev nD) (t : Fin cfg0.N) (row : Fin 256) (col : Fin 1024) (a : Fin 32) (h : Fin 1024)
    (ha : a.val = t.val / 4) (hh : h.val = (t.val % 4) * 256 + row.val) :
    xblk1 m c t (ix3 0 row col) = m ((c : Thread nD τ).loc main_arg1) (ix3 a h col) := by
  show iblk m c 1 t _ = _
  unfold iblk
  rw [View.read_apply]
  show V m c main_arg1 _ = _
  rw [V_main_arg1]
  congr 1
  funext d
  apply Fin.ext
  obtain ⟨i0, i1, i2⟩ := index1 t
  match d with
  | ⟨0, _⟩ => show win0_1.index t 0 * 1 + 1 * 0 = a.val; rw [i0, ha]; omega
  | ⟨1, _⟩ => show win0_1.index t 1 * 256 + 1 * row.val = h.val; rw [i1, hh]; omega
  | ⟨2, _⟩ => show win0_1.index t 2 * 1024 + 1 * col.val = col.val; rw [i2]; omega

/-- The counts of the 128 tiles, taken in two runs of 64, add up to the count over the whole arrays. -/
theorem sum_tiles (c : Dev nD) (r : Fin 3) (k : Fin 21) :
    ∑ o : Fin 2, ∑ s : Fin 64, Cert.Hist.tileCount (xblk0 m c (pt o s)) (xblk1 m c (pt o s)) r k
      = Cert.Hist.total (m ((c : Thread nD τ).loc main_arg0)) (m ((c : Thread nD τ).loc main_arg1)) r k := by
  unfold Cert.Hist.tileCount Cert.Hist.total
  rw [Cert.TileSums.sum_idx3]
  exact Cert.TileSums.sum_by_tiles N_0 pt pt_val
    (fun a h w => Cert.Hist.hit r k (m ((c : Thread nD τ).loc main_arg0) (ix3 a h w))
      (m ((c : Thread nD τ).loc main_arg1) (ix3 a h w)))
    (fun t row col => Cert.Hist.hit r k (xblk0 m c t (ix3 0 row col)) (xblk1 m c t (ix3 0 row col)))
    (fun t row col a h ha hh => by rw [xblk0_apply m c t row col a h ha hh, xblk1_apply m c t row col a h ha hh])

end Cert.KernelIdeal.HistValue

end
-- ==== Proof.KernelTail.lean ====
/- The idealized kernel program's run, read at its two results.

   After the kernel region the program holds a count array of shape [2, 3, 21]: for each of two blocks of tiles,
   for each kind of count (true label is the class, predicted label is the class, both are) and each of the 21
   classes, the count over that block's tiles. The host operations after the region add the two blocks
   (a sum over the leading axis from the initial value 0), cut the summed [3, 21] array into its three rows, read
   each row as a vector of 21 entries, and from the three vectors form the per-class ratio
   (both + eps) / (true + predicted - both + eps) and its mean over the classes that occur.

   Here the three vectors are named (`kc0`, `kc1`, `kc2`), each is read at a class as the sum of the two blocks'
   entries (`kc0_apply` …), and the program's run is stated with its two results as `Cert.Hist.miouOf` and
   `Cert.Hist.iouOf` of those three vectors, its two arguments unchanged (`run_tail`). -/
import proofs.«181553_j41497974014422_1_alg».proof.Proof.Gen.KernelIdeal.Frame
import proofs.«181553_j41497974014422_1_alg».proof.Proof.Spec
import Idealize.ShloMosaic.Lib.Pipeline.Value
import Idealize.ShloMosaic.Lib.StableHlo.Run
import Idealize.ShloMosaic.Lib.Tactic
import Idealize.ShloMosaic.PureOps.Ideal.Laws
import Idealize.ShloMosaic.Lib.ValueIdx
import Idealize.ShloMosaic.Lib.ValueLayout
import Idealize.ShloMosaic.Lib.IdealHost
import Mathlib.Algebra.BigOperators.Fin

noncomputable section

open scoped BigOperators

namespace Cert.KernelIdeal.HistValue

open Cert.KernelIdeal Cert.KernelIdeal.Gen Idealize.ShloMosaic Idealize.ShloMosaic.TcCoe Idealize.SL.Sem Idealize.ShloMosaic.ValueIdx
open Idealize.ShloMosaic.Pipeline (Dat)

/-- the count array summed over its two blocks -/
def rowsum (A : FVec Ideal S2x3x21 .f32) : FVec Ideal S3x21 .f32 :=
  Host.reduceAdd A (constant S_ .f32 0x00000000#32) reducesTo_S2x3x21_S3x21_d0 h_S_

/-- the true-label counts: row 0 of the summed array as a vector over the classes -/
def kc0 (A : FVec Ideal S2x3x21 .f32) : FVec Ideal S21 .f32 :=
  shapeCast S21 (extractStridedSlice S1x21 ![0, 0] (rowsum A) slices_S3x21_S1x21_0_0) shapeCasts_S1x21_S21
/-- the predicted-label counts: row 1 -/
def kc1 (A : FVec Ideal S2x3x21 .f32) : FVec Ideal S21 .f32 :=
  shapeCast S21 (extractStridedSlice S1x21 ![1, 0] (rowsum A) slices_S3x21_S1x21_1_0) shapeCasts_S1x21_S21
/-- the counts of places where both labels are the class: row 2 -/
def kc2 (A : FVec Ideal S2x3x21 .f32) : FVec Ideal S21 .f32 :=
  shapeCast S21 (extractStridedSlice S1x21 ![2, 0] (rowsum A) slices_S3x21_S1x21_2_0) shapeCasts_S1x21_S21

/-- The summed array at row r and class k: the two blocks' entries added. -/
theorem rowsum_apply (A : FVec Ideal S2x3x21 .f32) (r : Fin 3) (k : Fin 21) :
    rowsum A (ix2 r k) = A (ix3 0 r k) + A (ix3 1 r k) := by
  have hR : S2x3x21.Reduces [0] S3x21 := by decide
  have e : ∀ d : Fin 2, hR.lift (ix2 r k) d = ix3 d r k := fun d => funext fun a => Fin.ext (by
    match a with
    | ⟨0, _⟩ => rfl
    | ⟨1, _⟩ => rfl
    | ⟨2, _⟩ => rfl)
  unfold rowsum
  rw [hostReduceAdd_apply, Ideal.hostReduceAdd_single reducesTo_S2x3x21_S3x21_d0 hR, constant_apply,
    Ideal.ofBits_zero_f32, zero_add]
  exact (Fin.sum_univ_two (fun d : Fin 2 => A (hR.lift (ix2 r k) d))).trans (by rw [e 0, e 1])

/-- A one-row slice of the summed array, flattened, read at class k. -/
theorem flat_row_apply (B : FVec Ideal S3x21 .f32) (r : Fin 3) (off : Fin 2 → Nat) (hoff : off = ![r.val, 0])
    (hs : S3x21.Slices off S1x21) (k : Fin 21) :
    shapeCast S21 (extractStridedSlice S1x21 off B hs) shapeCasts_S1x21_S21 (ix1 k) = B (ix2 r k) := by
  subst hoff
  refine (shapeCast_apply _ _ (ix1 k) (ix2 0 k) ?_).trans ?_
  · rw [Shape.rowMajor_val_two, Shape.rowMajor_val_one]
    show 0 * 21 + k.val = k.val
    omega
  · exact slice2_axis0_apply r.val B hs 0 k r (by simp)

/-- Each count vector at class k is the sum of the two blocks' entries of its kind. -/
theorem kc0_apply (A : FVec Ideal S2x3x21 .f32) (k : Fin 21) : kc0 A (ix1 k) = A (ix3 0 0 k) + A (ix3 1 0 k) :=
  (flat_row_apply (rowsum A) 0 _ rfl slices_S3x21_S1x21_0_0 k).trans (rowsum_apply A 0 k)
theorem kc1_apply (A : FVec Ideal S2x3x21 .f32) (k : Fin 21) : kc1 A (ix1 k) = A (ix3 0 1 k) + A (ix3 1 1 k) :=
  (flat_row_apply (rowsum A) 1 _ rfl slices_S3x21_S1x21_1_0 k).trans (rowsum_apply A 1 k)
theorem kc2_apply (A : FVec Ideal S2x3x21 .f32) (k : Fin 21) : kc2 A (ix1 k) = A (ix3 0 2 k) + A (ix3 1 2 k) :=
  (flat_row_apply (rowsum A) 2 _ rfl slices_S3x21_S1x21_2_0 k).trans (rowsum_apply A 2 k)

variable (m : (ℓ : Loc nD τ sig) → Buf (Elt Ideal) ℓ)

/-- What the host operations after the region find at the region's output array: the array as the
    pipeline leaves it. -/
theorem exit_v0 (c : Dev nD) :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- Result 1 as the host operations after the region leave it: the per-class ratio of the three count vectors. -/
theorem tail_v14 (c : Dev nD) :
    Pipeline.afterTail₀ cfgs (dats m) 0 (V0 m) [hostOps1] c main_v14
      = Cert.Hist.iouOf bcast_S_S21 (kc0 ((dats m 0 c).arrAt 2 cfg0.N)) (kc1 ((dats m 0 c).arrAt 2 cfg0.N)) (kc2 ((dats m 0 c).arrAt 2 cfg0.N)) := by
  unfold Pipeline.afterTail₀
  show StableHlo.after hostOps1 _ (Proc.devRef .tc main_v14) = _
  after_results
  rw [exit_v0 m c]
  rfl

/-- Result 0 as the host operations after the region leave it: the mean ratio of the three count vectors. -/
theorem tail_v22 (c : Dev nD) :
    Pipeline.afterTail₀ cfgs (dats m) 0 (V0 m) [hostOps1] c main_v22
      = Cert.Hist.miouOf bcast_S_S21 reducesTo_S21_S_d0 h_S_ (kc0 ((dats m 0 c).arrAt 2 cfg0.N))
          (kc1 ((dats m 0 c).arrAt 2 cfg0.N)) (kc2 ((dats m 0 c).arrAt 2 cfg0.N)) := by
  unfold Pipeline.afterTail₀
  show StableHlo.after hostOps1 _ (Proc.devRef .tc main_v22) = _
  after_results_simp
  rw [exit_v0 m c]
  rfl

/-- The run of the idealized kernel program, read at its two results and its two arguments: the results are the
    mean ratio and the per-class ratio of the three count vectors taken from the region's count array, the
    arguments are unchanged. -/
theorem run_tail (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = Cert.Hist.miouOf bcast_S_S21 reducesTo_S21_S_d0 h_S_ (kc0 ((dats m 0 c).arrAt 2 cfg0.N)) (kc1 ((dats m 0 c).arrAt 2 cfg0.N)) (kc2 ((dats m 0 c).arrAt 2 cfg0.N))
      ∧ r.2.mem ((c.tc : Thread nD τ).loc main_v14) = Cert.Hist.iouOf bcast_S_S21 (kc0 ((dats m 0 c).arrAt 2 cfg0.N)) (kc1 ((dats m 0 c).arrAt 2 cfg0.N)) (kc2 ((dats m 0 c).arrAt 2 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v22 (by decide)).trans (tail_v22 m c),
     ((h c).2 main_v14 (by decide)).trans (tail_v14 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.HistValue

end
-- ==== Proof.RefValue.lean ====
/- The reference's three count vectors are the specification's totals.

   The reference counts by scatter-adding ones into 23 bins at the (wrapped) label of each place and keeping
   bins 1 to 21. At the ideal instance a scatter-add into a zero vector reads, at bin b, the number of places
   whose index word has signed value b. Labels are non-negative, so the wrap of negative indices is the
   identity, and a word whose signed value is k + 1 (at most 21) is the word k + 1: the class word. The flat
   view of an array lists every place once, so the count over the flat view is the count over the array. -/
import proofs.«181553_j41497974014422_1_alg».proof.Proof.RefRunP
import proofs.«181553_j41497974014422_1_alg».proof.Proof.Spec
import proofs.«181553_j41497974014422_1_alg».proof.Proof.LibSumLemmas
import Idealize.ShloMosaic.PureOps.Ideal
import Idealize.ShloMosaic.PureOps.Ideal.Laws
import Idealize.ShloMosaic.Lib.ValueIdx
import Idealize.ShloMosaic.Lib.Pipeline.Value
import Idealize.ShloMosaic.PureOps.IdealRules
import Idealize.ShloMosaic.Lib.StableHlo.Predicate
import Mathlib.Algebra.BigOperators.Fin

noncomputable section

open scoped BigOperators

namespace Cert.ReferenceIdeal.HistValue

open Cert.ReferenceIdeal Cert.ReferenceIdeal.Gen Idealize.ShloMosaic Idealize.ShloMosaic.ValueIdx

variable (m : (ℓ : Loc nD τ sig) → Buf (Elt Ideal) ℓ) (c : Dev nD)

/-- The reference's count of true labels per class: ones scatter-added at the wrapped true labels, bins 1 to 21. -/
def rcT : FVec Ideal S21 .f32 :=
  extractStridedSlice S21 ![1] (Host.scatterAdd scatter_S23_S33554432x1_S33554432_n_0_0_1 (broadcastInDim S23 ![] bcast_S_S23 (constant S_ .f32 0x00000000#32)) (broadcastInDim S33554432x1 ![0] bcast_S33554432_S33554432x1_0 (select (cmpi .slt (shapeCast _ (m ((c.tc : Thread nD τ).loc main_arg1)) shapeCasts_S32x1024x1024_S33554432) (broadcastInDim S33554432 ![] bcast_S_S33554432 (constantI S_ 32 0#32))) (addi (shapeCast _ (m ((c.tc : Thread nD τ).loc main_arg1)) shapeCasts_S32x1024x1024_S33554432) (broadcastInDim S33554432 ![] bcast_S_S33554432 (constantI S_ 32 23#32))) (shapeCast _ (m ((c.tc : Thread nD τ).loc main_arg1)) shapeCasts_S32x1024x1024_S33554432))) (broadcastInDim S33554432 ![] bcast_S_S33554432 (constant S_ .f32 0x3F800000#32))) slices_S23_S21_1

/-- The reference's count of predicted labels per class. -/
def rcP : FVec Ideal S21 .f32 :=
  extractStridedSlice S21 ![1] (Host.scatterAdd scatter_S23_S33554432x1_S33554432_n_0_0_1 (broadcastInDim S23 ![] bcast_S_S23 (constant S_ .f32 0x00000000#32)) (broadcastInDim S33554432x1 ![0] bcast_S33554432_S33554432x1_0 (select (cmpi .slt (shapeCast _ (m ((c.tc : Thread nD τ).loc main_arg0)) shapeCasts_S32x1024x1024_S33554432) (broadcastInDim S33554432 ![] bcast_S_S33554432 (constantI S_ 32 0#32))) (addi (shapeCast _ (m ((c.tc : Thread nD τ).loc main_arg0)) shapeCasts_S32x1024x1024_S33554432) (broadcastInDim S33554432 ![] bcast_S_S33554432 (constantI S_ 32 23#32))) (shapeCast _ (m ((c.tc : Thread nD τ).loc main_arg0)) shapeCasts_S32x1024x1024_S33554432))) (broadcastInDim S33554432 ![] bcast_S_S33554432 (constant S_ .f32 0x3F800000#32))) slices_S23_S21_1

/-- The reference's count of agreeing labels per class: the index is the true label where the two agree, 22 elsewhere. -/
def rcI : FVec Ideal S21 .f32 :=
  extractStridedSlice S21 ![1] (Host.scatterAdd scatter_S23_S33554432x1_S33554432_n_0_0_1 (broadcastInDim S23 ![] bcast_S_S23 (constant S_ .f32 0x00000000#32)) (broadcastInDim S33554432x1 ![0] bcast_S33554432_S33554432x1_0 (select (cmpi .slt (select (cmpi .eq (shapeCast _ (m ((c.tc : Thread nD τ).loc main_arg0)) shapeCasts_S32x1024x1024_S33554432) (shapeCast _ (m ((c.tc : Thread nD τ).loc main_arg1)) shapeCasts_S32x1024x1024_S33554432)) (shapeCast _ (m ((c.tc : Thread nD τ).loc main_arg1)) shapeCasts_S32x1024x1024_S33554432) (broadcastInDim S33554432 ![] bcast_S_S33554432 (id (constantI S_ 32 22#32)))) (broadcastInDim S33554432 ![] bcast_S_S33554432 (constantI S_ 32 0#32))) (addi (select (cmpi .eq (shapeCast _ (m ((c.tc : Thread nD τ).loc main_arg0)) shapeCasts_S32x1024x1024_S33554432) (shapeCast _ (m ((c.tc : Thread nD τ).loc main_arg1)) shapeCasts_S32x1024x1024_S33554432)) (shapeCast _ (m ((c.tc : Thread nD τ).loc main_arg1)) shapeCasts_S32x1024x1024_S33554432) (broadcastInDim S33554432 ![] bcast_S_S33554432 (id (constantI S_ 32 22#32)))) (broadcastInDim S33554432 ![] bcast_S_S33554432 (constantI S_ 32 23#32))) (select (cmpi .eq (shapeCast _ (m ((c.tc : Thread nD τ).loc main_arg0)) shapeCasts_S32x1024x1024_S33554432) (shapeCast _ (m ((c.tc : Thread nD τ).loc main_arg1)) shapeCasts_S32x1024x1024_S33554432)) (shapeCast _ (m ((c.tc : Thread nD τ).loc main_arg1)) shapeCasts_S32x1024x1024_S33554432) (broadcastInDim S33554432 ![] bcast_S_S33554432 (id (constantI S_ 32 22#32)))))) (broadcastInDim S33554432 ![] bcast_S_S33554432 (constant S_ .f32 0x3F800000#32))) slices_S23_S21_1

set_option maxRecDepth 8192 in
/-- The reference's per-class ratio is the specification's, of the three count vectors. -/
theorem res40_eq : RunP.res_main_v40 (F := Ideal) m c = Cert.Hist.iouOf bcast_S_S21 (rcT m c) (rcP m c) (rcI m c) := by
  unfold RunP.res_main_v40 Cert.Hist.iouOf rcT rcP rcI
  rfl

set_option maxRecDepth 8192 in
/-- The reference's mean ratio is the specification's, of the three count vectors. -/
theorem res48_eq : RunP.res_main_v48 (F := Ideal) m c
    = Cert.Hist.miouOf bcast_S_S21 reducesTo_S21_S_d0 h_S_ (rcT m c) (rcP m c) (rcI m c) := by
  unfold RunP.res_main_v48 Cert.Hist.miouOf Cert.Hist.iouOf rcT rcP rcI
  rfl

/-! ## The scatter's landing place -/

/-- The scatter's dimension numbers: one index component per update, naming operand axis 0; no window axes. -/
abbrev sd : ScatterDims S23 S33554432x1 S33554432 := scatter_S23_S33554432x1_S33554432_n_0_0_1

/-- Update `j` reads its one index component at row `j`, column `0` of the index array. -/
theorem siIdx_eq (j : S33554432.Idx) :
    sd.siIdx j ⟨List.idxOf (0 : Fin 1) sd.scatterDimsToOperandDims,
      List.idxOf_lt_length_iff.2 (List.mem_singleton.mpr rfl)⟩ = ix2 (j 0) 0 := by
  funext b; refine Fin.ext ?_
  match b with
  | ⟨0, _⟩ => rfl
  | ⟨1, _⟩ => rfl

/-- The start on the operand's one axis is the signed value of that index word. -/
theorem start_eq (j : S33554432.Idx) (idx : IVec S33554432x1 32) (a : Fin 1) :
    sd.start j idx a = (idx (ix2 (j 0) 0)).toInt := by
  obtain rfl : a = 0 := Subsingleton.elim _ _
  unfold ScatterDims.start
  rw [dif_pos (show (0 : Fin 1) ∈ sd.scatterDimsToOperandDims from List.mem_singleton.mpr rfl), siIdx_eq]
  rfl

/-- There is no window: the window coordinate is zero. -/
theorem window_eq (j : S33554432.Idx) (a : Fin 1) : sd.window j a = 0 := by
  obtain rfl : a = 0 := Subsingleton.elim _ _
  unfold ScatterDims.window
  rw [dif_neg]
  decide

/-- Update `j` lands on bin `b` exactly when its index word has signed value `b`. -/
theorem resultIdx_eq_some_iff (j : S33554432.Idx) (idx : IVec S33554432x1 32) (b : Fin 23) :
    sd.resultIdx? j idx = some (ix1 b) ↔ (idx (ix2 (j 0) 0)).toInt = b.val := by
  unfold ScatterDims.resultIdx?
  simp only [start_eq, window_eq]
  have h23 : ((![23] (0 : Fin 1) : ℕ) : ℤ) = 23 := rfl
  have hb : b.val < 23 := b.isLt
  by_cases hc : ∀ a : Fin 1, 0 ≤ (idx (ix2 (j 0) 0)).toInt + ((0 : ℕ) : ℤ)
      ∧ (idx (ix2 (j 0) 0)).toInt + ((0 : ℕ) : ℤ) < ((![23] a : ℕ) : ℤ)
  · rw [dif_pos hc]
    have hc0 := hc 0
    rw [h23] at hc0
    constructor
    · intro h
      have hv : ((idx (ix2 (j 0) 0)).toInt + ((0 : ℕ) : ℤ)).toNat = b.val :=
        congrArg Fin.val (congrFun (Option.some.inj h) 0)
      omega
    · intro h
      congr 1
      funext a
      obtain rfl : a = 0 := Subsingleton.elim _ _
      refine Fin.ext ?_
      show ((idx (ix2 (j 0) 0)).toInt + ((0 : ℕ) : ℤ)).toNat = b.val
      omega
  · rw [dif_neg hc]
    constructor
    · intro h; exact absurd h (by simp)
    · intro h
      exfalso; apply hc
      intro a
      obtain rfl : a = 0 := Subsingleton.elim _ _
      rw [h23]; omega

/-! ## Words -/

/-- A word of non-negative signed value is not below zero, so the wrap of negative indices keeps it. -/
theorem wrap_word (x : BitVec 32) (hx : 0 ≤ x.toInt) :
    Scalar.select (IntOp.cmpi .slt x 0#32) (IntOp.addi x 23#32) x = x := by
  have h0 : (0#32 : BitVec 32).toInt = 0 := by decide
  have hs : x.slt 0#32 = false := by
    unfold BitVec.slt; rw [h0]; exact decide_eq_false (by omega)
  have h : IntOp.cmpi .slt x 0#32 = 0#1 := by
    show BitVec.ofBool (x.slt 0#32) = 0#1
    rw [hs]; rfl
  rw [h]; exact select_zero _ _

/-- A word has the small signed value `n` exactly when it is the word `n`. -/
theorem toInt_eq_iff (x : BitVec 32) (n : ℕ) (hn : n < 2 ^ 31) : x.toInt = (n : ℤ) ↔ x = BitVec.ofNat 32 n := by
  constructor
  · intro h; apply BitVec.eq_of_toInt_eq; rw [h, StableHlo.Predicate.toInt_ofNat_small n hn]
  · intro h; rw [h]; exact StableHlo.Predicate.toInt_ofNat_small n hn

/-! ## The count at a bin -/

/-- The scatter-add at the ideal instance: the operand plus the sum of the updates that land there. -/
theorem scatterAdd_apply (x : FVec Ideal S23 .f32) (idx : IVec S33554432x1 32) (upd : FVec Ideal S33554432 .f32)
    (i : S23.Idx) :
    Host.scatterAdd sd x idx upd i
      = x i + ∑ j ∈ Finset.univ.filter (fun j => sd.resultIdx? j idx = some i), upd j := rfl

/-- The zero vector reads zero. -/
theorem zeros_apply (i : S23.Idx) :
    broadcastInDim S23 ![] bcast_S_S23 (constant (F := Ideal) S_ .f32 0x00000000#32) i = 0 :=
  Ideal.ofBits_zero_f32

/-- The ones vector reads one. -/
theorem ones_apply (j : S33554432.Idx) :
    broadcastInDim S33554432 ![] bcast_S_S33554432 (constant (F := Ideal) S_ .f32 0x3F800000#32) j = 1 :=
  IdealRules.sign_bit.ideal_onePat .f32

/-- For non-negative words the wrapped index array reads, at row `j`, the word at `j`. -/
theorem wrapped_apply (V : IVec S33554432 32) (hV : ∀ j, 0 ≤ (V j).toInt) (j : S33554432.Idx) :
    broadcastInDim S33554432x1 ![0] bcast_S33554432_S33554432x1_0
      (select (cmpi .slt V (broadcastInDim S33554432 ![] bcast_S_S33554432 (constantI S_ 32 0#32)))
        (addi V (broadcastInDim S33554432 ![] bcast_S_S33554432 (constantI S_ 32 23#32))) V) (ix2 (j 0) 0) = V j := by
  refine (broadcastInDim_apply ![0] bcast_S33554432_S33554432x1_0 _ (ix2 (j 0) 0) j (fun a => ?_)).trans ?_
  · obtain rfl : a = 0 := Subsingleton.elim _ _
    show (j 0).val = if (33554432 : ℕ) = 1 then 0 else (j 0).val
    rw [if_neg (by decide)]
  · exact wrap_word _ (hV j)

/-- Ones scatter-added into 23 zero bins at the wrapped words of `V`, bins 1 to 21 kept. -/
def cnt (V : IVec S33554432 32) : FVec Ideal S21 .f32 :=
  extractStridedSlice S21 ![1] (Host.scatterAdd scatter_S23_S33554432x1_S33554432_n_0_0_1 (broadcastInDim S23 ![] bcast_S_S23 (constant S_ .f32 0x00000000#32)) (broadcastInDim S33554432x1 ![0] bcast_S33554432_S33554432x1_0 (select (cmpi .slt V (broadcastInDim S33554432 ![] bcast_S_S33554432 (constantI S_ 32 0#32))) (addi V (broadcastInDim S33554432 ![] bcast_S_S33554432 (constantI S_ 32 23#32))) V)) (broadcastInDim S33554432 ![] bcast_S_S33554432 (constant S_ .f32 0x3F800000#32))) slices_S23_S21_1

/-- For non-negative words, bin `k + 1` holds the number of places whose word is the class word of `k`. -/
theorem cnt_apply (V : IVec S33554432 32) (hV : ∀ j, 0 ≤ (V j).toInt) (k : Fin 21) :
    cnt V (ix1 k) = ∑ j : S33554432.Idx, if V j = Cert.Hist.cls k then (1 : EReal) else 0 := by
  unfold cnt
  refine (extractStridedSlice_apply ![1] _ slices_S23_S21_1 (ix1 k) (ix1 ⟨k.val + 1, by omega⟩)
    (fun a => by obtain rfl : a = 0 := Subsingleton.elim _ _; show k.val + 1 = 1 + k.val; omega)).trans ?_
  rw [scatterAdd_apply, zeros_apply, zero_add, Finset.sum_filter]
  refine Finset.sum_congr rfl fun j _ => ?_
  rw [ones_apply]
  have hiff := resultIdx_eq_some_iff j
    (broadcastInDim S33554432x1 ![0] bcast_S33554432_S33554432x1_0
      (select (cmpi .slt V (broadcastInDim S33554432 ![] bcast_S_S33554432 (constantI S_ 32 0#32)))
        (addi V (broadcastInDim S33554432 ![] bcast_S_S33554432 (constantI S_ 32 23#32))) V)) ⟨k.val + 1, by omega⟩
  rw [wrapped_apply V hV j] at hiff
  have hcls : (V j).toInt = ((k.val + 1 : ℕ) : ℤ) ↔ V j = Cert.Hist.cls k :=
    toInt_eq_iff (V j) (k.val + 1) (by have := k.isLt; omega)
  by_cases h : V j = Cert.Hist.cls k
  · rw [if_pos h, if_pos (hiff.2 (hcls.2 h))]
  · rw [if_neg h, if_neg (fun e => h (hcls.1 (hiff.1 e)))]

/-! ## The three count vectors -/

/-- A sum over the flat view of an array is the sum over the array: the flat view lists every place once. -/
theorem sum_flat (f : S32x1024x1024.Idx → EReal) :
    ∑ j : S33554432.Idx, f (Shape.reshapeEquiv shapeCasts_S32x1024x1024_S33554432 j) = ∑ q : S32x1024x1024.Idx, f q :=
  Equiv.sum_comp (Shape.reshapeEquiv shapeCasts_S32x1024x1024_S33554432) f

/-- The class words are not the word 22. -/
theorem cls_ne_22 (k : Fin 21) : Cert.Hist.cls k ≠ 22#32 := by
  revert k; decide

/-- The count of true labels. -/
theorem rcT_apply (h0 : ∀ q : S32x1024x1024.Idx, 0 ≤ ((m ((c.tc : Thread nD τ).loc main_arg0)) q).toInt)
    (h1 : ∀ q : S32x1024x1024.Idx, 0 ≤ ((m ((c.tc : Thread nD τ).loc main_arg1)) q).toInt) (k : Fin 21) :
    rcT m c (ix1 k) = Cert.Hist.total (m ((c.tc : Thread nD τ).loc main_arg0)) (m ((c.tc : Thread nD τ).loc main_arg1)) 0 k := by
  show cnt (shapeCast _ (m ((c.tc : Thread nD τ).loc main_arg1)) shapeCasts_S32x1024x1024_S33554432) (ix1 k) = _
  rw [cnt_apply (shapeCast _ (m ((c.tc : Thread nD τ).loc main_arg1)) shapeCasts_S32x1024x1024_S33554432) (fun j => h1 _) k]
  refine (sum_flat (fun q => if (m ((c.tc : Thread nD τ).loc main_arg1)) q = Cert.Hist.cls k then (1 : EReal) else 0)).trans ?_
  unfold Cert.Hist.total
  refine Finset.sum_congr rfl fun q _ => ?_
  unfold Cert.Hist.hit
  by_cases h : (m ((c.tc : Thread nD τ).loc main_arg1)) q = Cert.Hist.cls k
  · rw [if_pos h, if_pos (show Cert.Hist.hitP 0 k ((m ((c.tc : Thread nD τ).loc main_arg0)) q) ((m ((c.tc : Thread nD τ).loc main_arg1)) q) from h)]
  · rw [if_neg h, if_neg (show ¬ Cert.Hist.hitP 0 k ((m ((c.tc : Thread nD τ).loc main_arg0)) q) ((m ((c.tc : Thread nD τ).loc main_arg1)) q) from h)]

/-- The count of predicted labels. -/
theorem rcP_apply (h0 : ∀ q : S32x1024x1024.Idx, 0 ≤ ((m ((c.tc : Thread nD τ).loc main_arg0)) q).toInt)
    (h1 : ∀ q : S32x1024x1024.Idx, 0 ≤ ((m ((c.tc : Thread nD τ).loc main_arg1)) q).toInt) (k : Fin 21) :
    rcP m c (ix1 k) = Cert.Hist.total (m ((c.tc : Thread nD τ).loc main_arg0)) (m ((c.tc : Thread nD τ).loc main_arg1)) 1 k := by
  show cnt (shapeCast _ (m ((c.tc : Thread nD τ).loc main_arg0)) shapeCasts_S32x1024x1024_S33554432) (ix1 k) = _
  rw [cnt_apply (shapeCast _ (m ((c.tc : Thread nD τ).loc main_arg0)) shapeCasts_S32x1024x1024_S33554432) (fun j => h0 _) k]
  refine (sum_flat (fun q => if (m ((c.tc : Thread nD τ).loc main_arg0)) q = Cert.Hist.cls k then (1 : EReal) else 0)).trans ?_
  unfold Cert.Hist.total
  refine Finset.sum_congr rfl fun q _ => ?_
  unfold Cert.Hist.hit
  by_cases h : (m ((c.tc : Thread nD τ).loc main_arg0)) q = Cert.Hist.cls k
  · rw [if_pos h, if_pos (show Cert.Hist.hitP 1 k ((m ((c.tc : Thread nD τ).loc main_arg0)) q) ((m ((c.tc : Thread nD τ).loc main_arg1)) q) from h)]
  · rw [if_neg h, if_neg (show ¬ Cert.Hist.hitP 1 k ((m ((c.tc : Thread nD τ).loc main_arg0)) q) ((m ((c.tc : Thread nD τ).loc main_arg1)) q) from h)]

/-- The word scattered for the agreeing places: the true label where the two labels agree, 22 elsewhere. -/
theorem agree_word (p t : BitVec 32) :
    Scalar.select (IntOp.cmpi .eq p t) t 22#32 = if p = t then t else 22#32 := by
  by_cases h : p = t
  · rw [Cert.SumLemmas.cmpi_eq_of_eq h, if_pos h]; exact select_one _ _
  · rw [Cert.SumLemmas.cmpi_eq_of_ne h, if_neg h]; exact select_zero _ _

/-- The vector of those words. -/
def agree (P T : IVec S33554432 32) : IVec S33554432 32 :=
  select (cmpi .eq P T) T (broadcastInDim S33554432 ![] bcast_S_S33554432 (id (constantI S_ 32 22#32)))

theorem agree_apply (P T : IVec S33554432 32) (j : S33554432.Idx) :
    agree P T j = if P j = T j then T j else 22#32 := agree_word (P j) (T j)

/-- The count of agreeing labels. -/
theorem rcI_apply (h0 : ∀ q : S32x1024x1024.Idx, 0 ≤ ((m ((c.tc : Thread nD τ).loc main_arg0)) q).toInt)
    (h1 : ∀ q : S32x1024x1024.Idx, 0 ≤ ((m ((c.tc : Thread nD τ).loc main_arg1)) q).toInt) (k : Fin 21) :
    rcI m c (ix1 k) = Cert.Hist.total (m ((c.tc : Thread nD τ).loc main_arg0)) (m ((c.tc : Thread nD τ).loc main_arg1)) 2 k := by
  show cnt (agree (shapeCast _ (m ((c.tc : Thread nD τ).loc main_arg0)) shapeCasts_S32x1024x1024_S33554432) (shapeCast _ (m ((c.tc : Thread nD τ).loc main_arg1)) shapeCasts_S32x1024x1024_S33554432)) (ix1 k) = _
  have hnn : ∀ j, 0 ≤ (agree (shapeCast _ (m ((c.tc : Thread nD τ).loc main_arg0)) shapeCasts_S32x1024x1024_S33554432) (shapeCast _ (m ((c.tc : Thread nD τ).loc main_arg1)) shapeCasts_S32x1024x1024_S33554432) j).toInt := by
    intro j
    rw [agree_apply]
    split
    · exact h1 _
    · decide
  rw [cnt_apply (agree (shapeCast _ (m ((c.tc : Thread nD τ).loc main_arg0)) shapeCasts_S32x1024x1024_S33554432) (shapeCast _ (m ((c.tc : Thread nD τ).loc main_arg1)) shapeCasts_S32x1024x1024_S33554432)) hnn k]
  unfold Cert.Hist.total
  refine (Finset.sum_congr rfl fun j _ => ?_).trans
    (sum_flat (fun q => Cert.Hist.hit 2 k ((m ((c.tc : Thread nD τ).loc main_arg0)) q) ((m ((c.tc : Thread nD τ).loc main_arg1)) q)))
  rw [agree_apply]
  unfold Cert.Hist.hit
  show (if (if (m ((c.tc : Thread nD τ).loc main_arg0)) (Shape.reshapeEquiv shapeCasts_S32x1024x1024_S33554432 j)
        = (m ((c.tc : Thread nD τ).loc main_arg1)) (Shape.reshapeEquiv shapeCasts_S32x1024x1024_S33554432 j)
      then (m ((c.tc : Thread nD τ).loc main_arg1)) (Shape.reshapeEquiv shapeCasts_S32x1024x1024_S33554432 j) else 22#32) = Cert.Hist.cls k
      then (1 : EReal) else 0) = _
  generalize (m ((c.tc : Thread nD τ).loc main_arg0)) (Shape.reshapeEquiv shapeCasts_S32x1024x1024_S33554432 j) = p
  generalize (m ((c.tc : Thread nD τ).loc main_arg1)) (Shape.reshapeEquiv shapeCasts_S32x1024x1024_S33554432 j) = t
  have hiff : (if p = t then t else 22#32) = Cert.Hist.cls k ↔ Cert.Hist.hitP 2 k p t := by
    show _ ↔ (t = Cert.Hist.cls k ∧ p = Cert.Hist.cls k)
    by_cases hpt : p = t
    · rw [if_pos hpt]
      constructor
      · intro h; exact ⟨h, hpt.trans h⟩
      · intro h; exact h.1
    · rw [if_neg hpt]
      constructor
      · intro h; exact absurd h.symm (cls_ne_22 k)
      · intro h; exact absurd (h.2.trans h.1.symm) hpt
  by_cases h : Cert.Hist.hitP 2 k p t
  · rw [if_pos (hiff.2 h), if_pos h]
  · rw [if_neg (fun e => h (hiff.1 e)), if_neg h]

end Cert.ReferenceIdeal.HistValue

end
-- ==== Proof.lean ====
/- The claim: the Pallas kernel and its jnp reference compute the same per-class ratios and the same mean.

   Inputs: two arrays of 32-bit labels of shape [32, 1024, 1024], predicted and true, every label
   non-negative (the precondition: a label indexes the reference's 23-bin histograms). For each of
   the 21 classes (label words 1 … 21) three counts are taken: the places whose true label is the
   class, whose predicted label is the class, and where both are.

   The reference takes them by three scatter-additions of ones into 23 bins — after the wrap of
   negative indices, which non-negativity makes the identity; an index past the bins is dropped —
   and keeps bins 1 … 21. Bin `k + 1` therefore holds the number of places whose label word is
   `k + 1`: the total count.

   The kernel walks 128 tiles of [256, 1024] labels. On a tile its loop over the classes forms, per
   class, the three sums of indicators and adds them into column `k` of a [3, 21] block through a
   one-hot row; the block is carried across the 64 tiles of a run, reset at the run's first tile and
   written back after its last, and the two runs' blocks are added on the host. The tiles partition
   the arrays, so these sums are the total counts as well.

   Over the extended reals every count is a finite sum of zeros and ones, only commutativity and
   associativity of addition are used, and both programs then apply the same operations to the
   three count vectors: the ratio (both + eps) / (true + predicted - both + eps) and its mean over
   the classes that occur. The idealized kernel is the printed kernel read over the extended reals
   with no rewrite, so the preservation statement is empty. -/
import proofs.«181553_j41497974014422_1_alg».proof.Defs
import proofs.«181553_j41497974014422_1_alg».proof.Proof.Gen.Kernel.Frame
import proofs.«181553_j41497974014422_1_alg».proof.Proof.Gen.KernelIdeal.Frame
import proofs.«181553_j41497974014422_1_alg».proof.Proof.Gen.ReferenceIdeal
import proofs.«181553_j41497974014422_1_alg».proof.Proof.Gen.Pre_any_inputs
import proofs.«181553_j41497974014422_1_alg».proof.Proof.RefRunP
import proofs.«181553_j41497974014422_1_alg».proof.Proof.Spec
import proofs.«181553_j41497974014422_1_alg».proof.Proof.PreDecode
import proofs.«181553_j41497974014422_1_alg».proof.Proof.LoopValue
import proofs.«181553_j41497974014422_1_alg».proof.Proof.Accum
import proofs.«181553_j41497974014422_1_alg».proof.Proof.BlockSum
import proofs.«181553_j41497974014422_1_alg».proof.Proof.KernelTail
import proofs.«181553_j41497974014422_1_alg».proof.Proof.RefValue
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx

/-! ## The kernel's three count vectors are the total counts -/

section Kernel

open Cert.KernelIdeal Cert.KernelIdeal.Gen Cert.KernelIdeal.HistValue

/-- The body's arithmetic, index by index. -/
theorem bodyFacts : BodyFacts := ⟨loopVal_apply, pay4_apply, pay1_apply⟩

variable (m : (ℓ : Loc nD τ sig) → Buf (Elt Ideal) ℓ)

/-- The total count of kind `r` as a vector over the 21 classes. -/
def totals (c : Dev nD) (r : Fin 3) : FVec Ideal S21 .f32 :=
  fun j => Cert.Hist.total (m ((c.tc : Thread nD τ).loc main_arg0)) (m ((c.tc : Thread nD τ).loc main_arg1)) r (j 0)

/-- The two runs' blocks of the count array add up to the total count. -/
theorem G_sum (c : Dev nD) (r : Fin 3) (k : Fin 21) :
    G m c (ix3 0 r k) + G m c (ix3 1 r k)
      = Cert.Hist.total (m ((c.tc : Thread nD τ).loc main_arg0)) (m ((c.tc : Thread nD τ).loc main_arg1)) r k := by
  rw [← sum_tiles m c r k, Fin.sum_univ_two]
  rfl

theorem kernel_true (c : Dev nD) : kc0 ((dats m 0 c).arrAt 2 cfg0.N) = totals m c 0 := by
  funext j
  obtain ⟨k, rfl⟩ : ∃ k : Fin 21, j = ix1 k := ⟨j 0, eq_ix1 j⟩
  rw [final2 m bodyFacts c, kc0_apply]
  exact G_sum m c 0 k

theorem kernel_pred (c : Dev nD) : kc1 ((dats m 0 c).arrAt 2 cfg0.N) = totals m c 1 := by
  funext j
  obtain ⟨k, rfl⟩ : ∃ k : Fin 21, j = ix1 k := ⟨j 0, eq_ix1 j⟩
  rw [final2 m bodyFacts c, kc1_apply]
  exact G_sum m c 1 k

theorem kernel_both (c : Dev nD) : kc2 ((dats m 0 c).arrAt 2 cfg0.N) = totals m c 2 := by
  funext j
  obtain ⟨k, rfl⟩ : ∃ k : Fin 21, j = ix1 k := ⟨j 0, eq_ix1 j⟩
  rw [final2 m bodyFacts c, kc2_apply]
  exact G_sum m c 2 k

end Kernel

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => ⟨(h c).2.2.1, (h c).2.2.2⟩)
    (Cert.ReferenceIdeal.RunP.run (F := Ideal) m ρ)

theorem preserves : Cert.preserves_Kernel_KernelIdeal := trivial

/-- Both programs end with the same function of the total counts: the kernel's count vectors are the totals
    (`kernel_true`, `kernel_pred`, `kernel_both`), the reference's are the totals of arrays that agree with the
    kernel's and are non-negative, and the two tails are one definition. -/
theorem algebraic : Cert.algebraic_KernelIdeal_ReferenceIdeal := by
  intro m ρ m' ρ' hpre hagree
  refine ⟨fun c => Cert.Hist.miouOf Cert.KernelIdeal.Facts₀.bcast_S_S21 Cert.KernelIdeal.Facts₀.reducesTo_S21_S_d0
      Cert.KernelIdeal.Facts₀.h_S_ (totals m c 0) (totals m c 1) (totals m c 2),
    fun c => Cert.Hist.iouOf Cert.KernelIdeal.Facts₀.bcast_S_S21 (totals m c 0) (totals m c 1) (totals m c 2), ?_, ?_⟩
  · refine (θ_run Cert.KernelIdeal.defs _ _).mono (fun r h c => ?_) (Cert.KernelIdeal.HistValue.run_tail m ρ)
    obtain ⟨h22, h14, ha0, ha1⟩ := h c
    refine ⟨h22.trans ?_, h14.trans ?_, ha0, ha1⟩
    · rw [kernel_true, kernel_pred, kernel_both]
    · rw [kernel_true, kernel_pred, kernel_both]
  · refine (θ_run Cert.ReferenceIdeal.defs _ _).mono (fun r h c => ?_) (Cert.ReferenceIdeal.RunP.run (F := Ideal) m' ρ')
    obtain ⟨h48, h40, ha0, ha1⟩ := h c
    obtain ⟨hn0, hn1⟩ := Cert.Hist.Pre.nonneg_of_pre (F := Ideal) _ _ (hpre c)
    have e0 := (hagree c).1
    have e1 := (hagree c).2
    have hT : Cert.ReferenceIdeal.HistValue.rcT m' c = totals m c 0 := by
      funext j
      obtain ⟨k, rfl⟩ : ∃ k : Fin 21, j = ix1 k := ⟨j 0, eq_ix1 j⟩
      rw [Cert.ReferenceIdeal.HistValue.rcT_apply m' c (by rw [e0]; exact hn0) (by rw [e1]; exact hn1) k, e0, e1]
      rfl
    have hP : Cert.ReferenceIdeal.HistValue.rcP m' c = totals m c 1 := by
      funext j
      obtain ⟨k, rfl⟩ : ∃ k : Fin 21, j = ix1 k := ⟨j 0, eq_ix1 j⟩
      rw [Cert.ReferenceIdeal.HistValue.rcP_apply m' c (by rw [e0]; exact hn0) (by rw [e1]; exact hn1) k, e0, e1]
      rfl
    have hI : Cert.ReferenceIdeal.HistValue.rcI m' c = totals m c 2 := by
      funext j
      obtain ⟨k, rfl⟩ : ∃ k : Fin 21, j = ix1 k := ⟨j 0, eq_ix1 j⟩
      rw [Cert.ReferenceIdeal.HistValue.rcI_apply m' c (by rw [e0]; exact hn0) (by rw [e1]; exact hn1) k, e0, e1]
      rfl
    refine ⟨h48.trans ?_, h40.trans ?_, ha0, ha1⟩
    · rw [Cert.ReferenceIdeal.HistValue.res48_eq, hT, hP, hI]
    · rw [Cert.ReferenceIdeal.HistValue.res40_eq, hT, hP, hI]

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
